-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : IVec S50000 1) (main_arg3 : FVec F S64x128 .f32) (main_arg4 : FVec F S128 .f32) (main_arg5 : FVec F S128x32 .f32) (main_arg6 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S851968 : Shape := ⟨1, ![851968]⟩
abbrev S851968x1 : Shape := ⟨2, ![851968, 1]⟩
abbrev S851968x64 : Shape := ⟨2, ![851968, 64]⟩
abbrev S8192x64 : Shape := ⟨2, ![8192, 64]⟩
abbrev S8192x1 : Shape := ⟨2, ![8192, 1]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S851968x128 : Shape := ⟨2, ![851968, 128]⟩
abbrev S8192x128 : Shape := ⟨2, ![8192, 128]⟩
abbrev S50000x32 : Shape := ⟨2, ![50000, 32]⟩
abbrev S5000x32 : Shape := ⟨2, ![5000, 32]⟩
abbrev S1x32 : Shape := ⟨2, ![1, 32]⟩

abbrev nBuf : Space → Nat
  | .hbm => 93
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i1⟩
  | .hbm, ⟨3, _⟩ => ⟨S64x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S_, .i32⟩
  | .hbm, ⟨44, _⟩ => ⟨S851968, .i32⟩
  | .hbm, ⟨45, _⟩ => ⟨S_, .i32⟩
  | .hbm, ⟨46, _⟩ => ⟨S_, .i32⟩
  | .hbm, ⟨47, _⟩ => ⟨S851968, .i32⟩
  | .hbm, ⟨48, _⟩ => ⟨S_, .i32⟩
  | .hbm, ⟨49, _⟩ => ⟨S_, .f32⟩
  | .hbm, ⟨50, _⟩ => ⟨S851968, .f32⟩
  | .hbm, ⟨51, _⟩ => ⟨S851968x1, .f32⟩
  | .hbm, ⟨52, _⟩ => ⟨S_, .i32⟩
  | .hbm, ⟨53, _⟩ => ⟨S851968, .i32⟩
  | .hbm, ⟨54, _⟩ => ⟨S851968, .i1⟩
  | .hbm, ⟨55, _⟩ => ⟨S_, .i32⟩
  | .hbm, ⟨56, _⟩ => ⟨S851968, .i32⟩
  | .hbm, ⟨57, _⟩ => ⟨S851968, .i32⟩
  | .hbm, ⟨58, _⟩ => ⟨S851968, .i32⟩
  | .hbm, ⟨59, _⟩ => ⟨S851968x1, .i32⟩
  | .hbm, ⟨60, _⟩ => ⟨S851968x64, .f32⟩
  | .hbm, ⟨61, _⟩ => ⟨S_, .i32⟩
  | .hbm, ⟨62, _⟩ => ⟨S851968, .i32⟩
  | .hbm, ⟨63, _⟩ => ⟨S851968, .i1⟩
  | .hbm, ⟨64, _⟩ => ⟨S_, .i32⟩
  | .hbm, ⟨65, _⟩ => ⟨S851968, .i32⟩
  | .hbm, ⟨66, _⟩ => ⟨S851968, .i32⟩
  | .hbm, ⟨67, _⟩ => ⟨S851968, .i32⟩
  | .hbm, ⟨68, _⟩ => ⟨S851968x1, .i32⟩
  | .hbm, ⟨69, _⟩ => ⟨S851968, .i1⟩
  | .hbm, ⟨70, _⟩ => ⟨S851968, .f32⟩
  | .hbm, ⟨71, _⟩ => ⟨S851968x1, .f32⟩
  | .hbm, ⟨72, _⟩ => ⟨S851968x64, .f32⟩
  | .hbm, ⟨73, _⟩ => ⟨S_, .f32⟩
  | .hbm, ⟨74, _⟩ => ⟨S50000x64, .f32⟩
  | .hbm, ⟨75, _⟩ => ⟨S851968x1, .i32⟩
  | .hbm, ⟨76, _⟩ => ⟨S50000x64, .f32⟩
  | .hbm, ⟨77, _⟩ => ⟨S50000x128, .f32⟩
  | .hbm, ⟨78, _⟩ => ⟨S_, .i32⟩
  | .hbm, ⟨79, _⟩ => ⟨S851968, .i32⟩
  | .hbm, ⟨80, _⟩ => ⟨S851968, .i1⟩
  | .hbm, ⟨81, _⟩ => ⟨S_, .i32⟩
  | .hbm, ⟨82, _⟩ => ⟨S851968, .i32⟩
  | .hbm, ⟨83, _⟩ => ⟨S851968, .i32⟩
  | .hbm, ⟨84, _⟩ => ⟨S851968, .i32⟩
  | .hbm, ⟨85, _⟩ => ⟨S851968x1, .i32⟩
  | .hbm, ⟨86, _⟩ => ⟨S851968x128, .f32⟩
  | .hbm, ⟨87, _⟩ => ⟨S851968x128, .f32⟩
  | .hbm, ⟨88, _⟩ => ⟨S_, .f32⟩
  | .hbm, ⟨89, _⟩ => ⟨S50000x128, .f32⟩
  | .hbm, ⟨90, _⟩ => ⟨S851968x1, .i32⟩
  | .hbm, ⟨91, _⟩ => ⟨S50000x128, .f32⟩
  | .hbm, ⟨92, _⟩ => ⟨S50000x32, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x1, .f32⟩
  | .local _ .vmem, ⟨5, _⟩ => ⟨S8192x1, .f32⟩
  | .local _ .vmem, ⟨6, _⟩ => ⟨S8192x64, .f32⟩
  | .local _ .vmem, ⟨7, _⟩ => ⟨S8192x64, .f32⟩
  | .local _ .vmem, ⟨8, _⟩ => ⟨S5000x64, .f32⟩
  | .local _ .vmem, ⟨9, _⟩ => ⟨S5000x64, .f32⟩
  | .local _ .vmem, ⟨10, _⟩ => ⟨S64x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S8192x128, .f32⟩
  | .local _ .vmem, ⟨15, _⟩ => ⟨S8192x128, .f32⟩
  | .local _ .vmem, ⟨16, _⟩ => ⟨S8192x1, .f32⟩
  | .local _ .vmem, ⟨17, _⟩ => ⟨S8192x1, .f32⟩
  | .local _ .vmem, ⟨18, _⟩ => ⟨S8192x128, .f32⟩
  | .local _ .vmem, ⟨19, _⟩ => ⟨S8192x128, .f32⟩
  | .local _ .vmem, ⟨20, _⟩ => ⟨S5000x128, .f32⟩
  | .local _ .vmem, ⟨21, _⟩ => ⟨S5000x128, .f32⟩
  | .local _ .vmem, ⟨22, _⟩ => ⟨S128x32, .f32⟩
  | .local _ .vmem, ⟨23, _⟩ => ⟨S32, .f32⟩
  | .local _ .vmem, ⟨24, _⟩ => ⟨S5000x32, .f32⟩
  | .local _ .vmem, ⟨25, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_call0_v0 : Ref sig .tc := ⟨.hbm, 43, rfl⟩
abbrev main_v28 : Ref sig .tc := ⟨.hbm, 44, rfl⟩
abbrev main_c_6 : Ref sig .tc := ⟨.hbm, 45, rfl⟩
abbrev main_call1_v0 : Ref sig .tc := ⟨.hbm, 46, rfl⟩
abbrev main_v29 : Ref sig .tc := ⟨.hbm, 47, rfl⟩
abbrev main_c_7 : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![104], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![104], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S850000_S851968_019680 : S850000.Pads (![0] : Fin 1 → Nat) ![1968] ![0] S851968
  h_S_ : 0 < S_.numel
  shapeCasts_S851968_S851968x1 : S851968.ShapeCasts S851968x1
  bcast_S_S851968 : S_.BroadcastsInDim S851968 (![] : Fin 0 → Fin S851968.rank)
  bcast_S851968_S851968x1_0 : S851968.BroadcastsInDim S851968x1 (![0] : Fin 1 → Fin S851968x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S8192x1_S8192x128 : S8192x1.Broadcasts S8192x128
  bcast_S_S50000x128 : S_.BroadcastsInDim S50000x128 (![] : Fin 0 → Fin S50000x128.rank)
  shapeCasts_S5000x128_S5000x128 : S5000x128.ShapeCasts S5000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S851968x1_S851968x64_1_0_n_n_0_1_164_wf : GatherDims.WF S50000x64 S851968x1 S851968x64 [1] [0] [] [0] [] 1 ![1, 64]
  gather_S50000_S851968x1_S851968_n_0_n_n_0_1_1_wf : GatherDims.WF S50000 S851968x1 S851968 [] [0] [] [0] [] 1 ![1]
  scatter_S50000x64_S851968x1_S851968x64_1_0_0_1_wf : ScatterDims.WF S50000x64 S851968x1 S851968x64 [1] [0] [0] 1
  dot_S5000x64_S64x128_S5000x128_1_0_0_1_n_n_wf : DotDims.WF S5000x64 S64x128 S5000x128 [1] [0] [0] [1] [] []
  gather_S50000x128_S851968x1_S851968x128_1_0_n_n_0_1_1128_wf : GatherDims.WF S50000x128 S851968x1 S851968x128 [1] [0] [] [0] [] 1 ![1, 128]
  scatter_S50000x128_S851968x1_S851968x128_1_0_0_1_wf : ScatterDims.WF S50000x128 S851968x1 S851968x128 [1] [0] [0] 1
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S851968x64.size a
  hwx0_0 : ∀ i : grid0.Coords, EltTy.bits .f32 = 32 ∨ (Rect.block (s := S851968x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S851968x1.size a
  hwx0_1 : ∀ i : grid0.Coords, EltTy.bits .f32 = 32 ∨ (Rect.block (s := S851968x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S851968x1.size a
  hwx0_2 : ∀ i : grid0.Coords, EltTy.bits .f32 = 32 ∨ (Rect.block (s := S851968x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S851968x64.size a
  hwx0_3 : ∀ i : grid0.Coords, EltTy.bits .f32 = 32 ∨ (Rect.block (s := S851968x64) S8192x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S851968x128.size a
  hwx2_0 : ∀ i : grid2.Coords, EltTy.bits .f32 = 32 ∨ (Rect.block (s := S851968x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x1.size a ≤ S851968x1.size a
  hwx2_1 : ∀ i : grid2.Coords, EltTy.bits .f32 = 32 ∨ (Rect.block (s := S851968x1) S8192x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x128.size a ≤ S851968x128.size a
  hwx2_2 : ∀ i : grid2.Coords, EltTy.bits .f32 = 32 ∨ (Rect.block (s := S851968x128) S8192x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x32.size a ≤ S128x32.size a
  hwx3_1 : ∀ i : grid3.Coords, EltTy.bits .f32 = 32 ∨ (Rect.block (s := S128x32) S128x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S50000x32.size a
  hwx3_3 : ∀ i : grid3.Coords, EltTy.bits .f32 = 32 ∨ (Rect.block (s := S50000x32) S5000x32.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S851968x1_S851968x64_1_0_n_n_0_1_164 : GatherDims S50000x64 S851968x1 S851968x64 where
  offsetDims := [1]
  collapsedSliceDims := [0]
  operandBatchingDims := []
  startIndicesBatchingDims := []
  startIndexMap := [0]
  indexVectorDim := 1
  sliceSizes := ![1, 64]
  wf := gather_S50000x64_S851968x1_S851968x64_1_0_n_n_0_1_164_wf
def gather_S50000_S851968x1_S851968_n_0_n_n_0_1_1 : GatherDims S50000 S851968x1 S851968 where
  offsetDims := []
  collapsedSliceDims := [0]
  operandBatchingDims := []
  startIndicesBatchingDims := []
  startIndexMap := [0]
  indexVectorDim := 1
  sliceSizes := ![1]
  wf := gather_S50000_S851968x1_S851968_n_0_n_n_0_1_1_wf
def scatter_S50000x64_S851968x1_S851968x64_1_0_0_1 : ScatterDims S50000x64 S851968x1 S851968x64 where
  updateWindowDims := [1]
  insertedWindowDims := [0]
  scatterDimsToOperandDims := [0]
  indexVectorDim := 1
  wf := scatter_S50000x64_S851968x1_S851968x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S851968x1_S851968x128_1_0_n_n_0_1_1128 : GatherDims S50000x128 S851968x1 S851968x128 where
  offsetDims := [1]
  collapsedSliceDims := [0]
  operandBatchingDims := []
  startIndicesBatchingDims := []
  startIndexMap := [0]
  indexVectorDim := 1
  sliceSizes := ![1, 128]
  wf := gather_S50000x128_S851968x1_S851968x128_1_0_n_n_0_1_1128_wf
def scatter_S50000x128_S851968x1_S851968x128_1_0_0_1 : ScatterDims S50000x128 S851968x1 S851968x128 where
  updateWindowDims := [1]
  insertedWindowDims := [0]
  scatterDimsToOperandDims := [0]
  indexVectorDim := 1
  wf := scatter_S50000x128_S851968x1_S851968x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_v38) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S8192x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S8192x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x128 : Shape := ⟨2, ![50000, 128]⟩
abbrev S1x128 : Shape := ⟨2, ![1, 128]⟩
abbrev S850000x128 : Shape := ⟨2, ![850000, 128]⟩
abbrev S50000x32 : Shape := ⟨2, ![50000, 32]⟩
abbrev S1x32 : Shape := ⟨2, ![1, 32]⟩

abbrev nBuf : Space → Nat
  | .hbm => 117
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i1⟩
  | .hbm, ⟨3, _⟩ => ⟨S64x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x64, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000, .i1⟩
  | .hbm, ⟨60, _⟩ => ⟨S850000, .f32⟩
  | .hbm, ⟨61, _⟩ => ⟨S850000x1, .f32⟩
  | .hbm, ⟨62, _⟩ => ⟨S_, .f32⟩
  | .hbm, ⟨63, _⟩ => ⟨S850000x64, .f32⟩
  | .hbm, ⟨64, _⟩ => ⟨S850000x64, .f32⟩
  | .hbm, ⟨65, _⟩ => ⟨S_, .f32⟩
  | .hbm, ⟨66, _⟩ => ⟨S850000x64, .f32⟩
  | .hbm, ⟨67, _⟩ => ⟨S850000x64, .f32⟩
  | .hbm, ⟨68, _⟩ => ⟨S_, .f32⟩
  | .hbm, ⟨69, _⟩ => ⟨S850000x64, .f32⟩
  | .hbm, ⟨70, _⟩ => ⟨S850000x64, .f32⟩
  | .hbm, ⟨71, _⟩ => ⟨S_, .f32⟩
  | .hbm, ⟨72, _⟩ => ⟨S850000x64, .f32⟩
  | .hbm, ⟨73, _⟩ => ⟨S850000x64, .f32⟩
  | .hbm, ⟨74, _⟩ => ⟨S850000x1, .f32⟩
  | .hbm, ⟨75, _⟩ => ⟨S850000x64, .f32⟩
  | .hbm, ⟨76, _⟩ => ⟨S850000x64, .f32⟩
  | .hbm, ⟨77, _⟩ => ⟨S_, .f32⟩
  | .hbm, ⟨78, _⟩ => ⟨S850000x1, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S850000x64, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S850000x1, .f32⟩
  | .hbm, ⟨97, _⟩ => ⟨S850000x1, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x128, .f32⟩
  | .hbm, ⟨108, _⟩ => ⟨S850000x128, .f32⟩
  | .hbm, ⟨109, _⟩ => ⟨S_, .f32⟩
  | .hbm, ⟨110, _⟩ => ⟨S50000x128, .f32⟩
  | .hbm, ⟨111, _⟩ => ⟨S850000x1, .i32⟩
  | .hbm, ⟨112, _⟩ => ⟨S50000x128, .f32⟩
  | .hbm, ⟨113, _⟩ => ⟨S50000x32, .f32⟩
  | .hbm, ⟨114, _⟩ => ⟨S1x32, .f32⟩
  | .hbm, ⟨115, _⟩ => ⟨S50000x32, .f32⟩
  | .hbm, ⟨116, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call0_cst : Ref sig .tc := ⟨.hbm, 93, rfl⟩
abbrev main_call0_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000x64 : S_.BroadcastsInDim S850000x64 (![] : Fin 0 → Fin S850000x64.rank)
  bcast_S850000x1_S850000x64_0_1 : S850000x1.BroadcastsInDim S850000x64 (![0, 1] : Fin 2 → Fin S850000x64.rank)
  bcast_S_S850000x1 : S_.BroadcastsInDim S850000x1 (![] : Fin 0 → Fin S850000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S850000x1_S850000x128_0_1 : S850000x1.BroadcastsInDim S850000x128 (![0, 1] : Fin 2 → Fin S850000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x32_S50000x32_1_0_0_1_n_n_wf : DotDims.WF S50000x128 S128x32 S50000x32 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KDefs.lean ====
/-
  The idealized kernel's value, stage by stage, as functions of the argument arrays (all at the ideal instance, where a
  float is an extended real and every operation is the textbook one).

  The program sends 851968 = 850000 + 1968 "messages" (one per edge or self loop, then 1968 padding slots) through two
  rounds of: gather a node row per message, transform it pointwise, add every message into its target node's row
  (a scatter-add), apply a dense layer.  Here are the four kernels' results as whole-array functions
  (`msgOne`, `dense1`, `msgTwo`, `dense2`) and the host operations between them composed as the program composes them
  (`kRowP` … `kOut`), over the three shared inputs every later stage reads: the message sources `rw`, the message
  targets `cl` and the edge weights `nm` (all of length 850000, before padding).
-/
import proofs.«100531_j28295244546111_1_alg».proof.Proof.Gen.KernelIdeal
import Idealize.ShloMosaic.PureOps.Ideal
import Idealize.ShloMosaic.Lib.ValueIdx

noncomputable section

namespace Cert.KernelIdeal.KVal

open Cert.KernelIdeal Cert.KernelIdeal.Gen Idealize.ShloMosaic Idealize.ShloMosaic.ValueIdx

/-! ## The four kernels as whole-array functions -/

/-- The row of the `[851968, 1]` column that message `j` of a `[851968, C]` array reads. -/
abbrev colOf64 (j : S851968x64.Idx) : S851968x1.Idx := ix2 (⟨(j 0).val, (j 0).isLt⟩ : Fin 851968) (0 : Fin 1)
abbrev colOf128 (j : S851968x128.Idx) : S851968x1.Idx := ix2 (⟨(j 0).val, (j 0).isLt⟩ : Fin 851968) (0 : Fin 1)

/-- First transform: `nm · (p · ((e₁ · a − 1) · e₂ + ½) + (1 − p) · a)`, the weight `nm` and the mask `p` read per message,
    with `e₁`, `e₂` the two float literals of the program. -/
def msgOne (a : S851968x64.Idx → EReal) (p nm : S851968x1.Idx → EReal) : S851968x64.Idx → EReal := fun j =>
  nm (colOf64 j) * (p (colOf64 j) * ((Ideal.ofBits .f32 0x406DF854#32 * a j - Ideal.ofBits .f32 0x3F800000#32)
      * Ideal.ofBits .f32 0x3F14FC6D#32 + Ideal.ofBits .f32 0x3F000000#32)
    + (Ideal.ofBits .f32 0x3F800000#32 - p (colOf64 j)) * a j)

/-- First dense layer: `max (∑ₖ s[n, k] · w[k, o] + b[o]) 0`. -/
def dense1 (s : S50000x64.Idx → EReal) (w : S64x128.Idx → EReal) (b : S128.Idx → EReal) : S50000x128.Idx → EReal := fun j =>
  max ((∑ k : Fin 64, s (ix2 (⟨(j 0).val, (j 0).isLt⟩ : Fin 50000) k) * w (ix2 k (⟨(j 1).val, (j 1).isLt⟩ : Fin 128)))
    + b (ix1 (⟨(j 1).val, (j 1).isLt⟩ : Fin 128))) 0

/-- Second transform: `(−nm) · h`, the weight read per message. -/
def msgTwo (h : S851968x128.Idx → EReal) (nm : S851968x1.Idx → EReal) : S851968x128.Idx → EReal := fun j =>
  (-(nm (colOf128 j))) * h j

/-- Second dense layer: `∑ₖ s[n, k] · w[k, o] + b[o]`. -/
def dense2 (s : S50000x128.Idx → EReal) (w : S128x32.Idx → EReal) (b : S32.Idx → EReal) : S50000x32.Idx → EReal := fun j =>
  (∑ k : Fin 128, s (ix2 (⟨(j 0).val, (j 0).isLt⟩ : Fin 50000) k) * w (ix2 k (⟨(j 1).val, (j 1).isLt⟩ : Fin 32)))
    + b (ix1 (⟨(j 1).val, (j 1).isLt⟩ : Fin 32))

/-! ## The host operations between the kernels, composed as the program composes them -/

/-- An index vector of length 850000 padded with 1968 zeros. -/
def kRowP (rw : IVec S850000 32) : IVec S851968 32 :=
  pad S851968 ![0] ![1968] ![0] rw (id (constantI S_ 32 0#32)) pads_S850000_S851968_019680 h_S_

/-- The weights padded with 1968 zeros, as a column. -/
def kNormCol (nm : FVec Ideal S850000 .f32) : FVec Ideal S851968x1 .f32 :=
  shapeCast S851968x1 (pad S851968 ![0] ![1968] ![0] nm (sitofp .f32 (constantI S_ 32 0#32) : FVec Ideal S_ .f32)
    pads_S850000_S851968_019680 h_S_) shapeCasts_S851968_S851968x1

/-- The start indices of a row take: a negative index wraps once by 50000, then the vector is kept as a column. -/
def kIdx (rp : IVec S851968 32) : IVec S851968x1 32 :=
  broadcastInDim S851968x1 ![0] bcast_S851968_S851968x1_0
    (select (cmpi .slt rp (broadcastInDim S851968 ![] bcast_S_S851968 (constantI S_ 32 0#32)))
      (addi rp (broadcastInDim S851968 ![] bcast_S_S851968 (constantI S_ 32 50000#32))) rp)

/-- The node rows the messages read. -/
def kXj (x0 : FVec Ideal S50000x64 .f32) (rw : IVec S850000 32) : FVec Ideal S851968x64 .f32 :=
  Host.gather gather_S50000x64_S851968x1_S851968x64_1_0_n_n_0_1_164 x0 (kIdx (kRowP rw))

/-- The mask bit of each message's source node, as a float column. -/
def kP (x2 : IVec S50000 1) (rw : IVec S850000 32) : FVec Ideal S851968x1 .f32 :=
  shapeCast S851968x1 (uitofp .f32 (Host.gather gather_S50000_S851968x1_S851968_n_0_n_n_0_1_1 x2 (kIdx (kRowP rw))) : FVec Ideal S851968 .f32)
    shapeCasts_S851968_S851968x1

def kMsg1 (x0 : FVec Ideal S50000x64 .f32) (x2 : IVec S50000 1) (rw : IVec S850000 32) (nm : FVec Ideal S850000 .f32) :
    FVec Ideal S851968x64 .f32 :=
  msgOne (kXj x0 rw) (kP x2 rw) (kNormCol nm)

def kAgg1 (x0 : FVec Ideal S50000x64 .f32) (x2 : IVec S50000 1) (rw cl : IVec S850000 32) (nm : FVec Ideal S850000 .f32) :
    FVec Ideal S50000x64 .f32 :=
  Host.scatterAdd scatter_S50000x64_S851968x1_S851968x64_1_0_0_1
    (broadcastInDim S50000x64 ![] bcast_S_S50000x64 (constant S_ .f32 0x00000000#32))
    (broadcastInDim S851968x1 ![0] bcast_S851968_S851968x1_0 (kRowP cl)) (kMsg1 x0 x2 rw nm)

def kH1 (x0 : FVec Ideal S50000x64 .f32) (x2 : IVec S50000 1) (x3 : FVec Ideal S64x128 .f32) (x4 : FVec Ideal S128 .f32)
    (rw cl : IVec S850000 32) (nm : FVec Ideal S850000 .f32) : FVec Ideal S50000x128 .f32 :=
  dense1 (kAgg1 x0 x2 rw cl nm) x3 x4

def kHj (x0 : FVec Ideal S50000x64 .f32) (x2 : IVec S50000 1) (x3 : FVec Ideal S64x128 .f32) (x4 : FVec Ideal S128 .f32)
    (rw cl : IVec S850000 32) (nm : FVec Ideal S850000 .f32) : FVec Ideal S851968x128 .f32 :=
  Host.gather gather_S50000x128_S851968x1_S851968x128_1_0_n_n_0_1_1128 (kH1 x0 x2 x3 x4 rw cl nm) (kIdx (kRowP rw))

def kMsg2 (x0 : FVec Ideal S50000x64 .f32) (x2 : IVec S50000 1) (x3 : FVec Ideal S64x128 .f32) (x4 : FVec Ideal S128 .f32)
    (rw cl : IVec S850000 32) (nm : FVec Ideal S850000 .f32) : FVec Ideal S851968x128 .f32 :=
  msgTwo (kHj x0 x2 x3 x4 rw cl nm) (kNormCol nm)

def kAgg2 (x0 : FVec Ideal S50000x64 .f32) (x2 : IVec S50000 1) (x3 : FVec Ideal S64x128 .f32) (x4 : FVec Ideal S128 .f32)
    (rw cl : IVec S850000 32) (nm : FVec Ideal S850000 .f32) : FVec Ideal S50000x128 .f32 :=
  Host.scatterAdd scatter_S50000x128_S851968x1_S851968x128_1_0_0_1
    (broadcastInDim S50000x128 ![] bcast_S_S50000x128 (constant S_ .f32 0x00000000#32))
    (broadcastInDim S851968x1 ![0] bcast_S851968_S851968x1_0 (kRowP cl)) (kMsg2 x0 x2 x3 x4 rw cl nm)

/-- The program's result. -/
def kOut (x0 : FVec Ideal S50000x64 .f32) (x2 : IVec S50000 1) (x3 : FVec Ideal S64x128 .f32) (x4 : FVec Ideal S128 .f32)
    (x5 : FVec Ideal S128x32 .f32) (x6 : FVec Ideal S32 .f32) (rw cl : IVec S850000 32) (nm : FVec Ideal S850000 .f32) :
    FVec Ideal S50000x32 .f32 :=
  dense2 (kAgg2 x0 x2 x3 x4 rw cl nm) x5 x6

end Cert.KernelIdeal.KVal

end
-- ==== Proof.KPrefix.lean ====
/-
  The first 28 host operations — the sources, targets and weights of the 850000 messages — are the same operations in
  the kernel's program and in the reference: here are the kernel's own compositions of them and, step by step, their
  identification with the reference's (the two programs' records of dimension numbers are different constants with
  the same fields).  The weight of message `i` is `d[src i] · d[tgt i]` with `d = deg ^ (−½)` and `deg` the number of
  messages from each node (a scatter-add of ones).
-/
import proofs.«100531_j28295244546111_1_alg».proof.Proof.Gen.KernelIdeal
import proofs.«100531_j28295244546111_1_alg».proof.Proof.Gen.ReferenceIdeal.Read
import Idealize.ShloMosaic.PureOps.Ideal

noncomputable section

namespace Cert.KernelIdeal.KPrefix

open Cert.KernelIdeal Cert.KernelIdeal.Gen Idealize.ShloMosaic
open Cert.ReferenceIdeal.Read

/-- A row take's start indices over the 850000 messages: a negative index wraps once by 50000, kept as a column. -/
def kIdx0 (r : IVec S850000 32) : IVec S850000x1 32 :=
  broadcastInDim S850000x1 ![0] bcast_S850000_S850000x1_0
    (select (cmpi .slt r (broadcastInDim S850000 ![] bcast_S_S850000 (constantI S_ 32 0#32)))
      (addi r (broadcastInDim S850000 ![] bcast_S_S850000 (constantI S_ 32 50000#32))) r)

/-- `deg ^ (−½)`, `deg` the scatter-add of ones along the sources. -/
def kDis (r : IVec S850000 32) : FVec Ideal S50000 .f32 :=
  Host.powf
    (Host.scatterAdd scatter_S50000_S850000x1_S850000_n_0_0_1
      (broadcastInDim S50000 ![] bcast_S_S50000 (constant S_ .f32 0x00000000#32))
      (broadcastInDim S850000x1 ![0] bcast_S850000_S850000x1_0 r)
      (broadcastInDim S850000 ![] bcast_S_S850000 (constant S_ .f32 0x3F800000#32)))
    (broadcastInDim S50000 ![] bcast_S_S50000 (constant S_ .f32 0xBF000000#32))

/-- The weights. -/
def kNM (r cl : IVec S850000 32) : FVec Ideal S850000 .f32 :=
  mulf (Host.gather gather_S50000_S850000x1_S850000_n_0_n_n_0_1_1 (kDis r) (kIdx0 r))
    (Host.gather gather_S50000_S850000x1_S850000_n_0_n_n_0_1_1 (kDis r) (kIdx0 cl))

variable (x1 : IVec S2x800000 32)

theorem kIdx0_v18 : kIdx0 (val_main_v3 (F := Ideal) x1) = val_main_v18 (F := Ideal) x1 := by
  unfold kIdx0 val_main_v18 val_main_v17 val_main_v14 val_main_v16 val_main_v13 val_main_v15 val_main_c val_main_c_2
  rfl

theorem kIdx0_v25 : kIdx0 (val_main_v6 (F := Ideal) x1) = val_main_v25 (F := Ideal) x1 := by
  unfold kIdx0 val_main_v25 val_main_v24 val_main_v21 val_main_v23 val_main_v20 val_main_v22 val_main_c_3 val_main_c_4
  rfl

theorem kDeg_v10 :
    Host.scatterAdd (F := Ideal) scatter_S50000_S850000x1_S850000_n_0_0_1
      (broadcastInDim S50000 ![] bcast_S_S50000 (constant S_ .f32 0x00000000#32))
      (broadcastInDim S850000x1 ![0] bcast_S850000_S850000x1_0 (val_main_v3 (F := Ideal) x1))
      (broadcastInDim S850000 ![] bcast_S_S850000 (constant S_ .f32 0x3F800000#32))
    = val_main_v10 (F := Ideal) x1 := by
  unfold val_main_v10 val_main_v8 val_main_v9 val_main_v7 val_main_cst val_main_cst_0
  rfl

theorem kDis_v12 : kDis (val_main_v3 (F := Ideal) x1) = val_main_v12 (F := Ideal) x1 := by
  unfold kDis val_main_v12 val_main_v11 val_main_cst_1
  rw [kDeg_v10]

/-- The kernel's weights are the reference's. -/
theorem kNM_v27 : kNM (val_main_v3 (F := Ideal) x1) (val_main_v6 (F := Ideal) x1) = val_main_v27 (F := Ideal) x1 := by
  unfold kNM val_main_v27 val_main_v19 val_main_v26
  rw [kDis_v12, kIdx0_v18, kIdx0_v25]
  rfl

end Cert.KernelIdeal.KPrefix

end
-- ==== Proof.KHost7.lean ====
/-
  What the buffers hold when the first kernel is entered, after the 65 host operations before it: the message sources and targets padded to 851968, the padded weight column, the gathered node rows and mask column — each the program's own composition of host operations applied to the argument arrays, with the first 28 operations (sources, targets and weights of the 850000 messages) the very operations the reference program begins with.
-/
import proofs.«100531_j28295244546111_1_alg».proof.Proof.Gen.KernelIdeal.Frame
import proofs.«100531_j28295244546111_1_alg».proof.Proof.Gen.ReferenceIdeal.Read
import proofs.«100531_j28295244546111_1_alg».proof.Proof.KDefs
import proofs.«100531_j28295244546111_1_alg».proof.Proof.KPrefix
import Idealize.ShloMosaic.Lib.StableHlo.Run

set_option maxRecDepth 16384

noncomputable section

namespace Cert.KernelIdeal.KHost7

open Cert.KernelIdeal Cert.KernelIdeal.Gen Idealize.ShloMosaic Idealize.ShloMosaic.TcCoe Idealize.SL.Sem Idealize.ShloMosaic.StableHlo

open Idealize.ShloMosaic.StableHlo in
/-- The operations' results rewritten one at a time (for what a single pass leaves inside an operand list). -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable (m : (ℓ : Loc nD τ sig) → Buf (Elt Ideal) ℓ) (ρ : Dev nD → PrngReg)

/-- The message sources, targets and weights as the reference's first 28 operations compute them from the edge list. -/
abbrev RW (c : Dev nD) : IVec S850000 32 := Cert.ReferenceIdeal.Read.val_main_v3 (F := Ideal) (m ((c : Thread nD τ).loc main_arg1))
abbrev CL (c : Dev nD) : IVec S850000 32 := Cert.ReferenceIdeal.Read.val_main_v6 (F := Ideal) (m ((c : Thread nD τ).loc main_arg1))
abbrev NM (c : Dev nD) : FVec Ideal S850000 .f32 := Cert.ReferenceIdeal.Read.val_main_v27 (F := Ideal) (m ((c : Thread nD τ).loc main_arg1))

set_option maxHeartbeats 4000000 in
/-- The padded sources. -/
theorem W7_v28 (c : Dev nD) : W7 m ρ c (Proc.devRef .tc main_v28) = KVal.kRowP (RW m c) := by
  dsimp only [W7, W6, W5, W4, W3, W2, W1]
  after_results_simp
  results_rw
  rfl

set_option maxHeartbeats 4000000 in
/-- The padded targets. -/
theorem W7_v29 (c : Dev nD) : W7 m ρ c (Proc.devRef .tc main_v29) = KVal.kRowP (CL m c) := by
  dsimp only [W7, W6, W5, W4, W3, W2, W1]
  after_results_simp
  results_rw
  rfl

set_option maxHeartbeats 4000000 in
/-- The weights after the first 36 host operations are the reference's. -/
theorem W1_v27 (c : Dev nD) : W1 m ρ c (Proc.devRef .tc main_v27) = NM m c := by
  have h : W1 m ρ c (Proc.devRef .tc main_v27) = KPrefix.kNM (RW m c) (CL m c) := by
    dsimp only [W1]
    after_results_simp
    results_rw
    rfl
  rw [h, KPrefix.kNM_v27]

/-- The five stretches that pad the three vectors, from ANY contents before them: the padded weights are the pad of
    what the weights' buffer held. -/
theorem pad_v30 (V1 : Valuation τ sig (Elt Ideal)) :
    StableHlo.after hostOps0_5 (StableHlo.after hostOps0_4 (StableHlo.after hostOps0_3 (StableHlo.after hostOps0_2
        (StableHlo.after hostOps0_1 V1)))) (Proc.devRef .tc main_v30)
      = pad S851968 ![0] ![1968] ![0] (V1 (Proc.devRef .tc main_v27)) (sitofp .f32 (constantI S_ 32 0#32) : FVec Ideal S_ .f32)
          pads_S850000_S851968_019680 h_S_ := by
  after_results_simp
  rfl

/-- The weights padded with 1968 zeros (before they are laid out as a column). -/
theorem W6_v30 (c : Dev nD) : W6 m ρ c (Proc.devRef .tc main_v30)
    = pad S851968 ![0] ![1968] ![0] (NM m c) (sitofp .f32 (constantI S_ 32 0#32) : FVec Ideal S_ .f32) pads_S850000_S851968_019680 h_S_ := by
  have h := pad_v30 (W1 m ρ c)
  rw [W1_v27] at h
  exact h

/-- The last stretch before the first kernel, from ANY contents before it: the weight column is the padded weights laid
    out as a column. -/
theorem col_v31 (V6 : Valuation τ sig (Elt Ideal)) :
    StableHlo.after hostOps0_6 V6 (Proc.devRef .tc main_v31)
      = shapeCast S851968x1 (V6 (Proc.devRef .tc main_v30)) shapeCasts_S851968_S851968x1 := by
  after_results_simp
  rfl

/-- The padded weight column. -/
theorem W7_v31 (c : Dev nD) : W7 m ρ c (Proc.devRef .tc main_v31) = KVal.kNormCol (NM m c) := by
  have h := col_v31 (W6 m ρ c)
  rw [W6_v30] at h
  exact h

set_option maxHeartbeats 4000000 in
/-- The gathered node rows. -/
theorem W7_v38 (c : Dev nD) : W7 m ρ c (Proc.devRef .tc main_v38) = KVal.kXj (m ((c : Thread nD τ).loc main_arg0)) (RW m c) := by
  dsimp only [W7, W6, W5, W4, W3, W2, W1]
  after_results_simp
  results_rw
  rfl

set_option maxHeartbeats 4000000 in
/-- The gathered mask column. -/
theorem W7_v47 (c : Dev nD) : W7 m ρ c (Proc.devRef .tc main_v47) = KVal.kP (m ((c : Thread nD τ).loc main_arg2)) (RW m c) := by
  dsimp only [W7, W6, W5, W4, W3, W2, W1]
  after_results_simp
  results_rw
  rfl

/-- No host operation before the first kernel writes an argument. -/
theorem W7_arg3 (c : Dev nD) : W7 m ρ c (Proc.devRef .tc main_arg3) = m ((c : Thread nD τ).loc main_arg3) := by
  dsimp only [W7, W6, W5, W4, W3, W2, W1]
  after_results_simp
theorem W7_arg4 (c : Dev nD) : W7 m ρ c (Proc.devRef .tc main_arg4) = m ((c : Thread nD τ).loc main_arg4) := by
  dsimp only [W7, W6, W5, W4, W3, W2, W1]
  after_results_simp
theorem W7_arg5 (c : Dev nD) : W7 m ρ c (Proc.devRef .tc main_arg5) = m ((c : Thread nD τ).loc main_arg5) := by
  dsimp only [W7, W6, W5, W4, W3, W2, W1]
  after_results_simp
theorem W7_arg6 (c : Dev nD) : W7 m ρ c (Proc.devRef .tc main_arg6) = m ((c : Thread nD τ).loc main_arg6) := by
  dsimp only [W7, W6, W5, W4, W3, W2, W1]
  after_results_simp

end Cert.KernelIdeal.KHost7

end
-- ==== Proof.KRegion0.lean ====
/-
  The first transform kernel's output array after its 104 grid points: every block of 8192 messages is the pointwise transform of the same block of its three inputs, and the blocks tile the array, so the whole array is `msgOne` of the whole input arrays.
-/
import proofs.«100531_j28295244546111_1_alg».proof.Proof.Gen.KernelIdeal.Frame
import proofs.«100531_j28295244546111_1_alg».proof.Proof.KDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KRegion0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-- A column `[a, 1]` broadcast to `[a, b]` reads, at `(p, q)`, the column's row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p`, lane `q` of a block: the weight times the masked blend of the
    transformed entry and the entry itself, the weight and the mask read from row `p` of their columns. -/
theorem pay_apply (x0 : Vec Ideal S8192x64 .f32) (x1 x2 : Vec Ideal S8192x1 .f32) (p : Fin 8192) (q : Fin 64) :
    k0_pay1 (F := Ideal) x0 x1 x2 (ix2 p q)
      = x2 (ix2 p (0 : Fin 1)) * (x1 (ix2 p (0 : Fin 1)) * ((Ideal.ofBits .f32 0x406DF854#32 * x0 (ix2 p q) - Ideal.ofBits .f32 0x3F800000#32)
            * Ideal.ofBits .f32 0x3F14FC6D#32 + Ideal.ofBits .f32 0x3F000000#32)
          + (Ideal.ofBits .f32 0x3F800000#32 - x1 (ix2 p (0 : Fin 1))) * x0 (ix2 p q)) := by
  unfold k0_pay1
  simp only [shapeCast_self]
  show broadcastTo S8192x64 x2 broadcasts_S8192x1_S8192x64 (ix2 p q)
      * (broadcastTo S8192x64 x1 broadcasts_S8192x1_S8192x64 (ix2 p q)
          * ((Ideal.ofBits .f32 0x406DF854#32 * x0 (ix2 p q) - Ideal.ofBits .f32 0x3F800000#32)
            * Ideal.ofBits .f32 0x3F14FC6D#32 + Ideal.ofBits .f32 0x3F000000#32)
        + broadcastTo S8192x64 (subf (broadcast S8192x1 (Scalar.ofBits (F := Ideal) .f32 0x3F800000#32)) x1) broadcasts_S8192x1_S8192x64 (ix2 p q)
          * x0 (ix2 p q)) = _
  rw [broadcastTo_col_apply, broadcastTo_col_apply, broadcastTo_col_apply]
  rfl

/-- The four windows' index maps over the grid: every window's block index at point `t` is `(t, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p`, lane `q` of the entries' block at point `t` is row `8192 t + p`, lane `q` of the entries' array. -/
theorem blkA_apply (c : Dev nD) (t : Fin cfg0.N) (p : Fin 8192) (q : Fin 64) (i : S851968x64.Idx)
    (h0 : (i 0).val = t.val * 8192 + p.val) (h1 : (i 1).val = q.val) :
    (iblk0 V c 0 t : Vec Ideal S8192x64 .f32) (ix2 p q) = (V c main_v38 : S851968x64.Idx → EReal) i := by
  obtain ⟨e0, e1, -⟩ := idx_facts t
  show (V c main_v38 : S851968x64.Idx → EReal) (((cfg0.win 0).blk t).view.emb (ix2 p q)) = _
  refine congrArg _ (funext fun a => Fin.ext ?_)
  match a with
  | ⟨0, _⟩ => show win0_0.index t (0 : Fin 2) * 8192 + 1 * p.val = (i 0).val; omega
  | ⟨1, _⟩ => show win0_0.index t (1 : Fin 2) * 64 + 1 * q.val = (i 1).val; omega

/-- Row `p` of the mask's block at point `t` is row `8192 t + p` of the mask column. -/
theorem blkP_apply (c : Dev nD) (t : Fin cfg0.N) (p : Fin 8192) (i : S851968x1.Idx)
    (h0 : (i 0).val = t.val * 8192 + p.val) :
    (iblk0 V c 1 t : Vec Ideal S8192x1 .f32) (ix2 p (0 : Fin 1)) = (V c main_v47 : S851968x1.Idx → EReal) i := by
  obtain ⟨-, -, e0, e1, -⟩ := idx_facts t
  have hi1 : (i 1).val < 1 := (i 1).isLt
  show (V c main_v47 : S851968x1.Idx → EReal) (((cfg0.win 1).blk t).view.emb (ix2 p (0 : Fin 1))) = _
  refine congrArg _ (funext fun a => Fin.ext ?_)
  match a with
  | ⟨0, _⟩ => show win0_1.index t (0 : Fin 2) * 8192 + 1 * p.val = (i 0).val; omega
  | ⟨1, _⟩ => show win0_1.index t (1 : Fin 2) * 1 + 1 * 0 = (i 1).val; omega

/-- Row `p` of the weights' block at point `t` is row `8192 t + p` of the weight column. -/
theorem blkN_apply (c : Dev nD) (t : Fin cfg0.N) (p : Fin 8192) (i : S851968x1.Idx)
    (h0 : (i 0).val = t.val * 8192 + p.val) :
    (iblk0 V c 2 t : Vec Ideal S8192x1 .f32) (ix2 p (0 : Fin 1)) = (V c main_v31 : S851968x1.Idx → EReal) i := by
  obtain ⟨-, -, -, -, e0, e1, -⟩ := idx_facts t
  have hi1 : (i 1).val < 1 := (i 1).isLt
  show (V c main_v31 : S851968x1.Idx → EReal) (((cfg0.win 2).blk t).view.emb (ix2 p (0 : Fin 1))) = _
  refine congrArg _ (funext fun a => Fin.ext ?_)
  match a with
  | ⟨0, _⟩ => show win0_2.index t (0 : Fin 2) * 8192 + 1 * p.val = (i 0).val; omega
  | ⟨1, _⟩ => show win0_2.index t (1 : Fin 2) * 1 + 1 * 0 = (i 1).val; omega

/-- What point `t` writes back is block `t` of the transform of the three whole arrays. -/
theorem flushed_eq (c : Dev nD) (t : Fin cfg0.N) :
    (dat0 (F := Ideal) V c).flushed 3 t
      = ((cfg0.win 3).blk t).view.read (Elt Ideal) (KVal.msgOne (V c main_v38) (V c main_v47) (V c main_v31)) := by
  show (cfg0.win 3).cut (grid0.coords t) ((dat0 V c).after 3 t) = _
  rw [after0_3]
  unfold out0_3
  rw [View.canon_unit_zero hz]
  simp only [View.ld_unit_zero (S := S8192x64) hz, View.ld_unit_zero (S := S8192x1) hz]
  obtain ⟨-, -, -, -, -, -, e0, e1⟩ := idx_facts t
  funext j
  have hj0 : (j 0).val < 8192 := (j 0).isLt
  have hj1 : (j 1).val < 64 := (j 1).isLt
  -- the block's row and lane, and the array index they sit at
  let p : Fin 8192 := ⟨(j 0).val, hj0⟩
  let q : Fin 64 := ⟨(j 1).val, hj1⟩
  let i : S851968x64.Idx := ((cfg0.win 3).blk t).view.emb j
  have hi0 : (i 0).val = t.val * 8192 + p.val := by
    show win0_3.index t (0 : Fin 2) * 8192 + 1 * (j 0).val = t.val * 8192 + (j 0).val; omega
  have hi1 : (i 1).val = q.val := by
    show win0_3.index t (1 : Fin 2) * 64 + 1 * (j 1).val = (j 1).val; omega
  show k0_pay1 (F := Ideal) (iblk0 V c 0 t) (iblk0 V c 1 t) (iblk0 V c 2 t) (ix2 p q)
      = KVal.msgOne (V c main_v38) (V c main_v47) (V c main_v31) i
  refine (pay_apply (iblk0 V c 0 t) (iblk0 V c 1 t) (iblk0 V c 2 t) p q).trans ?_
  rw [blkA_apply V c t p q i hi0 hi1, blkP_apply V c t p (KVal.colOf64 i) hi0, blkN_apply V c t p (KVal.colOf64 i) hi0]
  rfl

/-- An index of the array is in point `t`'s block iff each coordinate is in the block's range on its axis. -/
theorem mem_blk (t : Fin cfg0.N) (i : S851968x64.Idx) :
    i ∈ ((cfg0.win 3).blk t).view.set
      ↔ ∀ a : Fin 2, win0_3.index t a * S8192x64.size a ≤ (i a).val ∧ (i a).val < win0_3.index t a * S8192x64.size a + S8192x64.size a := by
  show i ∈ ((View.whole main_v48).slice (win0_3.rect t)).set ↔ _
  rw [View.set_slice_whole, Rect.mem_set_unit]
  exact Iff.rfl

/-- The 104 blocks of 8192 rows tile the array: row `r` is in the block of point `r / 8192`. -/
theorem cover (i : S851968x64.Idx) :
    ∃ t : Fin cfg0.N, (cfg0.win 3).flush t = true ∧ i ∈ ((cfg0.win 3).blk t).view.set := by
  have hi0 : (i 0).val < 851968 := (i 0).isLt
  have hi1 : (i 1).val < 64 := (i 1).isLt
  have hN : cfg0.N = 104 := N_0
  have ht : (i 0).val / 8192 < cfg0.N := by rw [hN]; omega
  obtain ⟨-, -, -, -, -, -, e0, e1⟩ := idx_facts ⟨(i 0).val / 8192, ht⟩
  refine ⟨⟨(i 0).val / 8192, ht⟩, flush0_3 _, ?_⟩
  rw [mem_blk]
  intro a
  match a with
  | ⟨0, _⟩ =>
    show win0_3.index ⟨(i 0).val / 8192, ht⟩ (0 : Fin 2) * 8192 ≤ (i 0).val
      ∧ (i 0).val < win0_3.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_3.index ⟨(i 0).val / 8192, ht⟩ (1 : Fin 2) * 64 ≤ (i 1).val
      ∧ (i 1).val < win0_3.index ⟨(i 0).val / 8192, ht⟩ (1 : Fin 2) * 64 + 64
    rw [e1]; omega

/-- The output array after all 104 points is the transform of the three whole input arrays, index by index. -/
theorem region0_value (c : Dev nD) :
    (dat0 (F := Ideal) V c).arrAt 3 cfg0.N = KVal.msgOne (V c main_v38) (V c main_v47) (V c main_v31) :=
  (dat0 V c).arrAt_eq_of_cover 3 (KVal.msgOne (V c main_v38) (V c main_v47) (V c main_v31))
    (fun t _ => flushed_eq V c t) cover

end Cert.KernelIdeal.KRegion0

end
-- ==== Proof.KRegion1.lean ====
/-
  The first dense kernel's output array after its 10 grid points: block `t` of 5000 node rows is the matrix product of the same rows of the input with the whole weight matrix, plus the bias, clamped below at 0; the blocks tile the array, so the whole array is `dense1` of the whole arrays.
-/
import proofs.«100531_j28295244546111_1_alg».proof.Proof.Gen.KernelIdeal.Frame
import proofs.«100531_j28295244546111_1_alg».proof.Proof.KDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KRegion1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The body's value at an index -/

/-- The zero offsets of a whole-block rectangle, however they are spelt. -/
theorem hz : (![0, 0] : Fin 2 → Nat) = fun _ => 0 := funext fun a => by fin_cases a <;> rfl

theorem hz1 : (![0] : Fin 1 → Nat) = fun _ => 0 := funext fun a => by fin_cases a; rfl

/-- The product's left operand is read at the output's row … -/
theorem lhs_dot_0 (i : S5000x128.Idx) (q : Cert.KernelIdeal.dot_S5000x64_S64x128_S5000x128_1_0_0_1_n_n.contr.Idx) :
    (Cert.KernelIdeal.dot_S5000x64_S64x128_S5000x128_1_0_0_1_n_n.lhsIdx i q 0).val = (i 0).val := by
  unfold DotDims.lhsIdx
  rw [dif_neg (show ¬(0 : Fin S5000x64.rank) ∈ Cert.KernelIdeal.dot_S5000x64_S64x128_S5000x128_1_0_0_1_n_n.lhsBatch by decide), dif_pos (show (0 : Fin S5000x64.rank) ∈ Cert.KernelIdeal.dot_S5000x64_S64x128_S5000x128_1_0_0_1_n_n.lhsNonContracting by decide)]
  rfl
/-- … and the contraction position, -/
theorem lhs_dot_1 (i : S5000x128.Idx) (q : Cert.KernelIdeal.dot_S5000x64_S64x128_S5000x128_1_0_0_1_n_n.contr.Idx) :
    (Cert.KernelIdeal.dot_S5000x64_S64x128_S5000x128_1_0_0_1_n_n.lhsIdx i q 1).val = (q ⟨0, by decide⟩).val :=
  Cert.KernelIdeal.dot_S5000x64_S64x128_S5000x128_1_0_0_1_n_n.lhsIdx_val_of_single rfl i q
/-- the right operand at the contraction position … -/
theorem rhs_dot_0 (i : S5000x128.Idx) (q : Cert.KernelIdeal.dot_S5000x64_S64x128_S5000x128_1_0_0_1_n_n.contr.Idx) :
    (Cert.KernelIdeal.dot_S5000x64_S64x128_S5000x128_1_0_0_1_n_n.rhsIdx i q 0).val = (q ⟨0, by decide⟩).val :=
  Cert.KernelIdeal.dot_S5000x64_S64x128_S5000x128_1_0_0_1_n_n.rhsIdx_val_of_single rfl i q
/-- … and the output's column. -/
theorem rhs_dot_1 (i : S5000x128.Idx) (q : Cert.KernelIdeal.dot_S5000x64_S64x128_S5000x128_1_0_0_1_n_n.contr.Idx) :
    (Cert.KernelIdeal.dot_S5000x64_S64x128_S5000x128_1_0_0_1_n_n.rhsIdx i q 1).val = (i 1).val := by
  unfold DotDims.rhsIdx
  rw [dif_neg (show ¬(1 : Fin S64x128.rank) ∈ Cert.KernelIdeal.dot_S5000x64_S64x128_S5000x128_1_0_0_1_n_n.rhsBatch by decide), dif_pos (show (1 : Fin S64x128.rank) ∈ Cert.KernelIdeal.dot_S5000x64_S64x128_S5000x128_1_0_0_1_n_n.rhsNonContracting by decide)]
  rfl

/-- The matrix product into a zero accumulator, at row `p` and column `q`: the sum over the 64 contracted positions. -/
theorem matmul_at (l : FVec Ideal S5000x64 .f32) (r : FVec Ideal S64x128 .f32) (p : Fin 5000) (q : Fin 128) :
    matmul Cert.KernelIdeal.dot_S5000x64_S64x128_S5000x128_1_0_0_1_n_n none l r (constant (F := Ideal) S5000x128 .f32 0x00000000#32) (ix2 p q)
      = ∑ k : Fin 64, l (ix2 p k) * r (ix2 k q) := by
  show FloatOps.matmul Cert.KernelIdeal.dot_S5000x64_S64x128_S5000x128_1_0_0_1_n_n none l r (constant S5000x128 .f32 0x00000000#32) (ix2 p q) = _
  rw [Ideal.matmul_constant_zero_apply, ← Equiv.sum_comp (ValueIdx.contrEquiv1 Cert.KernelIdeal.dot_S5000x64_S64x128_S5000x128_1_0_0_1_n_n 64 rfl rfl).symm]
  refine Finset.sum_congr rfl fun k _ => ?_
  have hk := ValueIdx.contrEquiv1_symm_val Cert.KernelIdeal.dot_S5000x64_S64x128_S5000x128_1_0_0_1_n_n 64 rfl rfl k
  have el : Cert.KernelIdeal.dot_S5000x64_S64x128_S5000x128_1_0_0_1_n_n.lhsIdx (ix2 p q) ((ValueIdx.contrEquiv1 Cert.KernelIdeal.dot_S5000x64_S64x128_S5000x128_1_0_0_1_n_n 64 rfl rfl).symm k) = ix2 p k := funext fun a => Fin.ext (by
    match a with
    | ⟨0, _⟩ => exact lhs_dot_0 _ _
    | ⟨1, _⟩ => exact (lhs_dot_1 _ _).trans hk)
  have er : Cert.KernelIdeal.dot_S5000x64_S64x128_S5000x128_1_0_0_1_n_n.rhsIdx (ix2 p q) ((ValueIdx.contrEquiv1 Cert.KernelIdeal.dot_S5000x64_S64x128_S5000x128_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- The bias, given a leading unit axis and repeated down the 5000 rows, at row `p` and column `q` is the bias at `q`. -/
theorem bias_at (b : FVec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (0 : Fin 1) q) (fun a => ?_)).trans ?_
  · match a with
    | ⟨0, _⟩ => show (0 : ℕ) = if (1 : ℕ) = 1 then 0 else p.val; rw [if_pos rfl]
    | ⟨1, _⟩ => show q.val = if (128 : ℕ) = 1 then 0 else q.val; rw [if_neg (by decide)]
  · refine (shapeCast_addUnit_apply ![128] b shapeCasts_S128_S1x128 (ix2 (0 : Fin 1) q)).trans ?_
    exact congrArg b (funext fun a => match a with | ⟨0, _⟩ => rfl)

/-- THE BODY AT AN INDEX: the row of the input block times the column of the weights, plus the bias, clamped below at 0. -/
theorem pay_at (x0 : Vec Ideal S5000x64 .f32) (x1 : Vec Ideal S64x128 .f32) (x2 : Vec Ideal S128 .f32) (p : Fin 5000) (q : Fin 128) :
    k1_pay1 (F := Ideal) x0 x1 x2 (ix2 p q) = max ((∑ k : Fin 64, x0 (ix2 p k) * x1 (ix2 k q)) + x2 (ix1 q)) 0 := by
  unfold k1_pay1
  show max (matmul Cert.KernelIdeal.dot_S5000x64_S64x128_S5000x128_1_0_0_1_n_n none (shapeCast S5000x64 x0 shapeCasts_S5000x64_S5000x64) x1 (constant (F := Ideal) S5000x128 .f32 0x00000000#32) (ix2 p q)
      + broadcastTo S5000x128 (shapeCast S1x128 x2 shapeCasts_S128_S1x128) broadcasts_S1x128_S5000x128 (ix2 p q)) (Ideal.ofBits .f32 0x00000000#32) = _
  rw [shapeCast_self, matmul_at, bias_at, Ideal.ofBits_zero_f32]

/-- A BLOCK'S ELEMENT IS THE ARRAY'S: where the input block's row `p` is the array's row `T`, and the weight and bias blocks are the
    whole weight matrix and bias, the body at `(p, q)` is `dense1` of the arrays at `(T, q)`. -/
theorem pay_at_dense (s : S50000x64.Idx → EReal) (w : S64x128.Idx → EReal) (b : S128.Idx → EReal)
    (x0 : Vec Ideal S5000x64 .f32) (x1 : Vec Ideal S64x128 .f32) (x2 : Vec Ideal S128 .f32) (T : Fin 50000) (p : Fin 5000) (q : Fin 128)
    (h0 : ∀ k : Fin 64, x0 (ix2 p k) = s (ix2 T k)) (h1 : ∀ k : Fin 64, x1 (ix2 k q) = w (ix2 k q)) (h2 : x2 (ix1 q) = b (ix1 q)) :
    k1_pay1 (F := Ideal) x0 x1 x2 (ix2 p q) = KVal.dense1 s w b (ix2 T q) := by
  rw [pay_at, h2, Finset.sum_congr rfl fun k _ => (by rw [h0 k, h1 k] : x0 (ix2 p k) * x1 (ix2 k q) = s (ix2 T k) * w (ix2 k q))]
  rfl

variable (V : (c : Dev nD) → (b : Ref sig .tc) → Buf (Elt Ideal) ((c : Thread nD τ).loc b))

/-! ## From the blocks to the array -/

/-- The printed index maps, decided once over the 10 grid points: the input rows and the output rows move with the grid
    coordinate, one block of 5000 rows a point, at column block 0; the weights and the bias are always their one whole block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- WHAT POINT `t` WRITES BACK is block `t` (rows `5000 t` to `5000 t + 4999`) of `dense1` of the arrays as the region finds them. -/
theorem flushed_eq (c : Dev nD) (t : Fin cfg1.N) :
    (dat1 (F := Ideal) V c).flushed 3 t
      = ((cfg1.win 3).blk t).view.read (Elt Ideal) (KVal.dense1 (V c main_v51) (V c main_arg3) (V c main_arg4)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x128) hz, View.ld_unit_zero (S := S128) hz1]
  obtain ⟨e0, e1, e2, e3, e4, e5, e6⟩ := idx_facts t
  have ht : t.val < 10 := t.isLt
  funext j
  obtain ⟨p, q, rfl⟩ : ∃ (p : Fin 5000) (q : Fin 128), j = ix2 p q := ⟨j 0, j 1, eq_ix2 j⟩
  have hP : t.val * 5000 + p.val < 50000 := by have := p.isLt; omega
  -- the output's own index in the array: row `5000 t + p`, column `q`
  have hr : ((cfg1.win 3).blk t).view.emb (ix2 p q) = (ix2 (⟨t.val * 5000 + p.val, hP⟩ : Fin 50000) q : S50000x128.Idx) := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  -- the input block's row `p` is the array's row `5000 t + p`
  have h0 : ∀ k : Fin 64, ((cfg1.win 0).blk t).view.emb (ix2 p k) = (ix2 (⟨t.val * 5000 + p.val, hP⟩ : Fin 50000) k : S50000x64.Idx) := fun k => by
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  -- the weights' one block is the whole matrix, the bias's the whole vector
  have h1 : ∀ k : Fin 64, ((cfg1.win 1).blk t).view.emb (ix2 k q) = (ix2 k q : S64x128.Idx) := fun k => by
    funext a; apply Fin.ext
    match a with
    | ⟨0, _⟩ => show win1_1.index t (0 : Fin 2) * 64 + 1 * k.val = k.val; omega
    | ⟨1, _⟩ => show win1_1.index t (1 : Fin 2) * 128 + 1 * q.val = q.val; omega
  have h2 : ((cfg1.win 2).blk t).view.emb (ix1 q) = (ix1 q : S128.Idx) := by
    funext a; apply Fin.ext
    match a with
    | ⟨0, _⟩ => show win1_2.index t (0 : Fin 1) * 128 + 1 * q.val = q.val; omega
  exact (pay_at_dense (V c main_v51) (V c main_arg3) (V c main_arg4) (iblk1 V c 0 t) (iblk1 V c 1 t) (iblk1 V c 2 t)
      ⟨t.val * 5000 + p.val, hP⟩ p q
      (fun k => congrArg (V c main_v51) (h0 k)) (fun k => congrArg (V c main_arg3) (h1 k)) (congrArg (V c main_arg4) h2)).trans
    (congrArg (KVal.dense1 (V c main_v51) (V c main_arg3) (V c main_arg4)) hr.symm)

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52).slice (win1_3.rect t)).set ↔ _
  rw [View.set_slice_whole, Rect.mem_set_unit]
  exact Iff.rfl

/-- THE BLOCKS TILE THE ARRAY: row `r` is in the block of point `r / 5000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  refine ⟨⟨(i 0).val / 5000, by show (i 0).val / 5000 < 10; omega⟩, flush1_3 _, ?_⟩
  rw [mem_blk]
  obtain ⟨-, -, -, -, -, e5, e6⟩ := idx_facts ⟨(i 0).val / 5000, by show (i 0).val / 5000 < 10; omega⟩
  intro a
  match a with
  | ⟨0, _⟩ =>
    show win1_3.index ⟨(i 0).val / 5000, _⟩ (0 : Fin 2) * 5000 ≤ (i 0).val ∧ (i 0).val < win1_3.index ⟨(i 0).val / 5000, _⟩ (0 : Fin 2) * 5000 + 5000
    rw [e5]; show (i 0).val / 5000 * 5000 ≤ (i 0).val ∧ (i 0).val < (i 0).val / 5000 * 5000 + 5000; omega
  | ⟨1, _⟩ =>
    show win1_3.index ⟨(i 0).val / 5000, _⟩ (1 : Fin 2) * 128 ≤ (i 1).val ∧ (i 1).val < win1_3.index ⟨(i 0).val / 5000, _⟩ (1 : Fin 2) * 128 + 128
    rw [e6]; omega

/-- THE ARRAY after the 10 points: `dense1` of the arrays the region was entered with. -/
theorem region1_value (c : Dev nD) :
    (dat1 (F := Ideal) V c).arrAt 3 cfg1.N = KVal.dense1 (V c main_v51) (V c main_arg3) (V c main_arg4) :=
  (dat1 (F := Ideal) V c).arrAt_eq_of_cover 3 (KVal.dense1 (V c main_v51) (V c main_arg3) (V c main_arg4))
    (fun t _ => flushed_eq V c t) cover

end Cert.KernelIdeal.KRegion1

end
-- ==== Proof.KRegion2.lean ====
/-
  The second transform kernel's output array after its 104 grid points: every block of 8192 messages is the pointwise product of the negated weight column with the same block of the gathered rows; the blocks tile the array, so the whole array is `msgTwo` of the whole input arrays.
-/
import proofs.«100531_j28295244546111_1_alg».proof.Proof.Gen.KernelIdeal.Frame
import proofs.«100531_j28295244546111_1_alg».proof.Proof.KDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KRegion2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block access, however they are spelt. -/
theorem offsets_zero : (![0, 0] : Fin 2 → Nat) = fun _ => 0 := funext fun a => by fin_cases a <;> rfl

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at row `p`, lane `q`: the negated weight of the row times the block's entry. -/
theorem payload_apply (x0 : Vec Ideal S8192x128 .f32) (x1 : Vec Ideal S8192x1 .f32) (p : Fin 8192) (q : Fin 128) :
    (k2_pay1 (F := Ideal) x0 x1 : S8192x128.Idx → EReal) (ix2 p q)
      = (-(x1 (ix2 p (0 : Fin 1)) : EReal)) * (x0 (ix2 p q) : EReal) := by
  unfold k2_pay1
  simp only [shapeCast_self]
  rw [mulf_apply]
  refine congrArg (· * (x0 (ix2 p q) : EReal)) ?_
  refine (broadcastTo_a1_ab_apply _ _ p q).trans ?_
  rw [subf_apply, broadcast_apply]
  show Ideal.ofBits .f32 0x00000000#32 - _ = _
  rw [Ideal.ofBits_zero_f32, zero_sub]

/-- The printed index maps, decided once over the grid: every window's block index at point `t` is `(t, 0)`. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- A block of the payload is a block of the second transform: when the message block `x0` is the rows `e j` of the
    gathered array `A` and the weight block `x1` holds, at row `p`, the weight of the message `e (p, q)` sits in. -/
theorem block_value (A : S851968x128.Idx → EReal) (N : S851968x1.Idx → EReal)
    (x0 : Vec Ideal S8192x128 .f32) (x1 : Vec Ideal S8192x1 .f32) (e : S8192x128.Idx → S851968x128.Idx)
    (h0 : ∀ j : S8192x128.Idx, (x0 j : EReal) = A (e j))
    (h1 : ∀ (p : Fin 8192) (q : Fin 128), (x1 (ix2 p (0 : Fin 1)) : EReal) = N (KVal.colOf128 (e (ix2 p q)))) :
    (k2_pay1 (F := Ideal) x0 x1 : S8192x128.Idx → EReal) = fun j => KVal.msgTwo A N (e j) := by
  funext j
  obtain ⟨p, q, rfl⟩ : ∃ (p : Fin 8192) (q : Fin 128), j = ix2 p q := ⟨j 0, j 1, eq_ix2 j⟩
  rw [payload_apply, h0, h1 p q]
  rfl

/-- WHAT POINT `t` WRITES BACK is block `t` of the second transform of the arrays the region finds. -/
theorem flushed_eq (c : Dev nD) (t : Fin cfg2.N) :
    (dat2 (F := Ideal) V c).flushed 2 t
      = ((cfg2.win 2).blk t).view.read (Elt Ideal) (KVal.msgTwo (V c main_v59) (V c main_v31)) := by
  show (cfg2.win 2).cut (grid2.coords t) ((dat2 (F := Ideal) V c).after 2 t) = _
  rw [after2_2]
  unfold out2_2
  rw [View.canon_unit_zero offsets_zero]
  simp only [View.ld_unit_zero (S := S8192x128) offsets_zero, View.ld_unit_zero (S := S8192x1) offsets_zero]
  obtain ⟨e00, e01, e10, e11, e20, e21⟩ := index_facts t
  refine block_value (V c main_v59) (V c main_v31) (iblk2 V c 0 t) (iblk2 V c 1 t)
    (fun j => ((cfg2.win 2).blk t).view.emb j) (fun j => ?_) (fun p q => ?_)
  · -- the message block sits where the output block sits
    show (V c main_v59 : S851968x128.Idx → EReal) (((cfg2.win 0).blk t).view.emb j) = _
    refine congrArg (V c main_v59 : S851968x128.Idx → EReal) (funext fun a => Fin.ext ?_)
    match a with
    | ⟨0, _⟩ => show win2_0.index t (0 : Fin 2) * 8192 + 1 * (j 0).val = win2_2.index t (0 : Fin 2) * 8192 + 1 * (j 0).val; omega
    | ⟨1, _⟩ => show win2_0.index t (1 : Fin 2) * 128 + 1 * (j 1).val = win2_2.index t (1 : Fin 2) * 128 + 1 * (j 1).val; omega
  · -- the weight block's row p is the weight of the message in row p of the output block
    show (V c main_v31 : S851968x1.Idx → EReal) (((cfg2.win 1).blk t).view.emb (ix2 p (0 : Fin 1))) = _
    refine congrArg (V c main_v31 : S851968x1.Idx → EReal) (funext fun a => Fin.ext ?_)
    match a with
    | ⟨0, _⟩ => show win2_1.index t (0 : Fin 2) * 8192 + 1 * p.val = win2_2.index t (0 : Fin 2) * 8192 + 1 * p.val; omega
    | ⟨1, _⟩ => show win2_1.index t (1 : Fin 2) * 1 + 1 * 0 = 0; omega

/-- An index of the array is in point `t`'s block iff each coordinate is in the block's range on its axis. -/
theorem mem_block (t : Fin cfg2.N) (i : S851968x128.Idx) :
    i ∈ ((cfg2.win 2).blk t).view.set ↔ ∀ a : Fin 2, win2_2.index t a * S8192x128.size a ≤ (i a).val
      ∧ (i a).val < win2_2.index t a * S8192x128.size a + S8192x128.size a := by
  show i ∈ ((View.whole main_v60).slice (win2_2.rect t)).set ↔ _
  rw [View.set_slice_whole, Rect.mem_set_unit]
  exact Iff.rfl

/-- The 104 blocks of 8192 rows tile the 851968 rows: row `r` is in the block of point `r / 8192`. -/
theorem covered (i : S851968x128.Idx) :
    ∃ t : Fin cfg2.N, (cfg2.win 2).flush t = true ∧ i ∈ ((cfg2.win 2).blk t).view.set := by
  have hi0 : (i 0).val < 851968 := (i 0).isLt
  have hi1 : (i 1).val < 128 := (i 1).isLt
  obtain ⟨t, ht⟩ : ∃ t : Fin cfg2.N, t.val = (i 0).val / 8192 :=
    ⟨⟨(i 0).val / 8192, by show _ < grid2.N; rw [N_2]; omega⟩, rfl⟩
  obtain ⟨-, -, -, -, e20, e21⟩ := index_facts t
  refine ⟨t, flush2_2 t, ?_⟩
  rw [mem_block]
  intro a
  match a with
  | ⟨0, _⟩ =>
    show win2_2.index t (0 : Fin 2) * 8192 ≤ (i 0).val ∧ (i 0).val < win2_2.index t (0 : Fin 2) * 8192 + 8192
    omega
  | ⟨1, _⟩ =>
    show win2_2.index t (1 : Fin 2) * 128 ≤ (i 1).val ∧ (i 1).val < win2_2.index t (1 : Fin 2) * 128 + 128
    omega

/-- THE ARRAY after the 104 points: the second transform of the whole gathered array and the whole weight column. -/
theorem region2_value (c : Dev nD) :
    (dat2 (F := Ideal) V c).arrAt 2 cfg2.N = KVal.msgTwo (V c main_v59) (V c main_v31) :=
  (dat2 (F := Ideal) V c).arrAt_eq_of_cover 2 (KVal.msgTwo (V c main_v59) (V c main_v31))
    (fun t _ => flushed_eq V c t) covered

end Cert.KernelIdeal.KRegion2

end
-- ==== Proof.KRegion3.lean ====
/-
  The second dense kernel's output array after its 10 grid points: block `t` of 5000 node rows is the matrix product of the same rows of the input with the whole weight matrix, plus the bias; the blocks tile the array, so the whole array is `dense2` of the whole arrays.
-/
import proofs.«100531_j28295244546111_1_alg».proof.Proof.Gen.KernelIdeal.Frame
import proofs.«100531_j28295244546111_1_alg».proof.Proof.KDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KRegion3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The matrix product at an index -/

/-- The left operand's row coordinate is the output's row. -/
theorem lhs_dot_0 (i : S5000x32.Idx) (q : Cert.KernelIdeal.dot_S5000x128_S128x32_S5000x32_1_0_0_1_n_n.contr.Idx) :
    (Cert.KernelIdeal.dot_S5000x128_S128x32_S5000x32_1_0_0_1_n_n.lhsIdx i q 0).val = (i 0).val := by
  unfold DotDims.lhsIdx
  rw [dif_neg (show ¬(0 : Fin S5000x128.rank) ∈ Cert.KernelIdeal.dot_S5000x128_S128x32_S5000x32_1_0_0_1_n_n.lhsBatch by decide), dif_pos (show (0 : Fin S5000x128.rank) ∈ Cert.KernelIdeal.dot_S5000x128_S128x32_S5000x32_1_0_0_1_n_n.lhsNonContracting by decide)]
  rfl
/-- The left operand's column coordinate is the contraction index. -/
theorem lhs_dot_1 (i : S5000x32.Idx) (q : Cert.KernelIdeal.dot_S5000x128_S128x32_S5000x32_1_0_0_1_n_n.contr.Idx) :
    (Cert.KernelIdeal.dot_S5000x128_S128x32_S5000x32_1_0_0_1_n_n.lhsIdx i q 1).val = (q ⟨0, by decide⟩).val :=
  Cert.KernelIdeal.dot_S5000x128_S128x32_S5000x32_1_0_0_1_n_n.lhsIdx_val_of_single rfl i q
/-- The right operand's row coordinate is the contraction index. -/
theorem rhs_dot_0 (i : S5000x32.Idx) (q : Cert.KernelIdeal.dot_S5000x128_S128x32_S5000x32_1_0_0_1_n_n.contr.Idx) :
    (Cert.KernelIdeal.dot_S5000x128_S128x32_S5000x32_1_0_0_1_n_n.rhsIdx i q 0).val = (q ⟨0, by decide⟩).val :=
  Cert.KernelIdeal.dot_S5000x128_S128x32_S5000x32_1_0_0_1_n_n.rhsIdx_val_of_single rfl i q
/-- The right operand's column coordinate is the output's column. -/
theorem rhs_dot_1 (i : S5000x32.Idx) (q : Cert.KernelIdeal.dot_S5000x128_S128x32_S5000x32_1_0_0_1_n_n.contr.Idx) :
    (Cert.KernelIdeal.dot_S5000x128_S128x32_S5000x32_1_0_0_1_n_n.rhsIdx i q 1).val = (i 1).val := by
  unfold DotDims.rhsIdx
  rw [dif_neg (show ¬(1 : Fin S128x32.rank) ∈ Cert.KernelIdeal.dot_S5000x128_S128x32_S5000x32_1_0_0_1_n_n.rhsBatch by decide), dif_pos (show (1 : Fin S128x32.rank) ∈ Cert.KernelIdeal.dot_S5000x128_S128x32_S5000x32_1_0_0_1_n_n.rhsNonContracting by decide)]
  rfl

/-- The product of a `[5000, 128]` block with the `[128, 32]` matrix into a zero accumulator, at row `p` and column `q`,
    is the sum over the 128 contracted coordinates of the entries' products. -/
theorem matmul_at (l : FVec Ideal S5000x128 .f32) (r : FVec Ideal S128x32 .f32) (p : Fin 5000) (q : Fin 32) :
    matmul Cert.KernelIdeal.dot_S5000x128_S128x32_S5000x32_1_0_0_1_n_n none l r (constant (F := Ideal) S5000x32 .f32 0x00000000#32) (ix2 p q)
      = ∑ k : Fin 128, l (ix2 p k) * r (ix2 k q) := by
  simp only [matmul]
  rw [Ideal.matmul_constant_zero_apply, ← Equiv.sum_comp (ValueIdx.contrEquiv1 Cert.KernelIdeal.dot_S5000x128_S128x32_S5000x32_1_0_0_1_n_n 128 rfl rfl).symm]
  refine Finset.sum_congr rfl fun k _ => ?_
  have hk := ValueIdx.contrEquiv1_symm_val Cert.KernelIdeal.dot_S5000x128_S128x32_S5000x32_1_0_0_1_n_n 128 rfl rfl k
  have el : Cert.KernelIdeal.dot_S5000x128_S128x32_S5000x32_1_0_0_1_n_n.lhsIdx (ix2 p q) ((ValueIdx.contrEquiv1 Cert.KernelIdeal.dot_S5000x128_S128x32_S5000x32_1_0_0_1_n_n 128 rfl rfl).symm k) = ix2 p k := funext fun a => Fin.ext (by
    match a with
    | ⟨0, _⟩ => exact lhs_dot_0 _ _
    | ⟨1, _⟩ => exact (lhs_dot_1 _ _).trans hk)
  have er : Cert.KernelIdeal.dot_S5000x128_S128x32_S5000x32_1_0_0_1_n_n.rhsIdx (ix2 p q) ((ValueIdx.contrEquiv1 Cert.KernelIdeal.dot_S5000x128_S128x32_S5000x32_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's payload at an index -/

/-- The body's result at row `p`, column `q` of the block: the row of the input block times the column of the weight
    matrix, plus the bias at `q` (the bias is cast to one row and that row repeated over the 5000 rows). -/
theorem pay_at (x0 : Vec Ideal S5000x128 .f32) (x1 : Vec Ideal S128x32 .f32) (x2 : Vec Ideal S32 .f32) (p : Fin 5000) (q : Fin 32) :
    k3_pay1 (F := Ideal) x0 x1 x2 (ix2 p q) = (∑ k : Fin 128, x0 (ix2 p k) * x1 (ix2 k q)) + x2 (ix1 q) := by
  unfold k3_pay1
  show matmul Cert.KernelIdeal.dot_S5000x128_S128x32_S5000x32_1_0_0_1_n_n none (shapeCast S5000x128 x0 shapeCasts_S5000x128_S5000x128) x1 (constant (F := Ideal) S5000x32 .f32 0x00000000#32) (ix2 p q)
      + broadcastTo S5000x32 (shapeCast S1x32 x2 shapeCasts_S32_S1x32) broadcasts_S1x32_S5000x32 (ix2 p q) = _
  rw [shapeCast_self]
  refine congrArg₂ (· + ·) (matmul_at x0 x1 p q) ?_
  refine (broadcastTo_1b_ab_apply _ broadcasts_S1x32_S5000x32 p q).trans ?_
  exact shapeCast_a_1a_apply x2 shapeCasts_S32_S1x32 (0 : Fin 1) q

/-! ## The input blocks read off their arrays -/

theorem hz : (![0, 0] : Fin 2 → Nat) = fun _ => 0 := funext fun a => by
  match a with
  | ⟨0, _⟩ => rfl
  | ⟨1, _⟩ => rfl
theorem hz1 : (![0] : Fin 1 → Nat) = fun _ => 0 := funext fun a => by
  match a with
  | ⟨0, _⟩ => rfl

/-- The printed index maps, decided over the grid: the input rows' and the output's block index is the grid coordinate on
    the row axis and 0 on the column axis; the weight matrix and the bias are always block 0. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 1) = 0
    ∧ win3_3.index t (0 : Fin 2) = t.val
    ∧ win3_3.index t (1 : Fin 2) = 0 :=
  (by decide +kernel : ∀ t : Fin grid3.N, _)

/-- Row `p` of the input block at point `t` is row `5000 t + p` of the input array. -/
theorem rows_at (c : Dev nD) (t : Fin cfg3.N) (p : Fin 5000) (k : Fin 128) (r : Fin 50000) (hr : r.val = t.val * 5000 + p.val) :
    (iblk3 V c 0 t : Vec Ideal S5000x128 .f32) (ix2 p k) = (V c main_v63 : S50000x128.Idx → EReal) (ix2 r k) := by
  obtain ⟨e0, e1, -⟩ := idx_facts t
  show (V c main_v63 : S50000x128.Idx → EReal) (((cfg3.win 0).blk t).view.emb (ix2 p k)) = (V c main_v63 : S50000x128.Idx → EReal) (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The weight block at every point is the whole weight matrix. -/
theorem weights_at (c : Dev nD) (t : Fin cfg3.N) (k : Fin 128) (q q' : Fin 32) (hq : q'.val = q.val) :
    (iblk3 V c 1 t : Vec Ideal S128x32 .f32) (ix2 k q) = (V c main_arg5 : S128x32.Idx → EReal) (ix2 k q') := by
  obtain ⟨-, -, e2, e3, -⟩ := idx_facts t
  show (V c main_arg5 : S128x32.Idx → EReal) (((cfg3.win 1).blk t).view.emb (ix2 k q)) = (V c main_arg5 : S128x32.Idx → EReal) (ix2 k q')
  refine congrArg _ (funext fun a => Fin.ext ?_)
  match a with
  | ⟨0, _⟩ => show win3_1.index t (0 : Fin 2) * 128 + 1 * k.val = k.val; omega
  | ⟨1, _⟩ => show win3_1.index t (1 : Fin 2) * 32 + 1 * q.val = q'.val; omega

/-- The bias block at every point is the whole bias. -/
theorem bias_at (c : Dev nD) (t : Fin cfg3.N) (q q' : Fin 32) (hq : q'.val = q.val) :
    (iblk3 V c 2 t : Vec Ideal S32 .f32) (ix1 q) = (V c main_arg6 : S32.Idx → EReal) (ix1 q') := by
  obtain ⟨-, -, -, -, e4, -⟩ := idx_facts t
  show (V c main_arg6 : S32.Idx → EReal) (((cfg3.win 2).blk t).view.emb (ix1 q)) = (V c main_arg6 : S32.Idx → EReal) (ix1 q')
  refine congrArg _ (funext fun a => Fin.ext ?_)
  match a with
  | ⟨0, _⟩ => show win3_2.index t (0 : Fin 1) * 32 + 1 * q.val = q'.val; omega

/-! ## From blocks to the array -/

/-- WHAT POINT `t` WRITES BACK is block `t` of `dense2` of the arrays as the region finds them. -/
theorem flushed_eq (c : Dev nD) (t : Fin cfg3.N) :
    (dat3 (F := Ideal) V c).flushed 3 t = ((cfg3.win 3).blk t).view.read (Elt Ideal) (KVal.dense2 (V c main_v63) (V c main_arg5) (V c main_arg6)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x32) hz, View.ld_unit_zero (S := S32) hz1]
  obtain ⟨-, -, -, -, -, e5, e6⟩ := idx_facts t
  funext j
  obtain ⟨p, q, rfl⟩ : ∃ (p : Fin 5000) (q : Fin 32), j = ix2 p q := ⟨j 0, j 1, eq_ix2 j⟩
  show k3_pay1 (F := Ideal) (iblk3 V c 0 t) (iblk3 V c 1 t) (iblk3 V c 2 t) (ix2 p q)
    = KVal.dense2 (V c main_v63) (V c main_arg5) (V c main_arg6) (((cfg3.win 3).blk t).view.emb (ix2 p q))
  refine (pay_at (iblk3 V c 0 t) (iblk3 V c 1 t) (iblk3 V c 2 t) p q).trans ?_
  have h0 : ((((cfg3.win 3).blk t).view.emb (ix2 p q) : S50000x32.Idx) 0).val = t.val * 5000 + p.val := by
    show win3_3.index t (0 : Fin 2) * 5000 + 1 * p.val = t.val * 5000 + p.val; omega
  have h1 : ((((cfg3.win 3).blk t).view.emb (ix2 p q) : S50000x32.Idx) 1).val = q.val := by
    show win3_3.index t (1 : Fin 2) * 32 + 1 * q.val = q.val; omega
  unfold KVal.dense2
  exact congrArg₂ (· + ·)
    (Finset.sum_congr rfl fun k _ => congrArg₂ (· * ·) (rows_at V c t p k _ h0) (weights_at V c t k q _ h1))
    (bias_at V c t q _ h1)

/-- An index of the array is in point `t`'s block iff each coordinate is in the block's range on its axis. -/
theorem mem_blk (t : Fin cfg3.N) (i : S50000x32.Idx) :
    i ∈ ((cfg3.win 3).blk t).view.set ↔ ∀ a : Fin 2, win3_3.index t a * S5000x32.size a ≤ (i a).val ∧ (i a).val < win3_3.index t a * S5000x32.size a + S5000x32.size a := by
  show i ∈ ((View.whole main_v64).slice (win3_3.rect t)).set ↔ _
  rw [View.set_slice_whole, Rect.mem_set_unit]
  exact Iff.rfl

/-- Every row `r` of the array is in the block of point `r / 5000`: the ten blocks of 5000 rows tile the 50000 rows. -/
theorem cover (i : S50000x32.Idx) : ∃ t : Fin cfg3.N, (cfg3.win 3).flush t = true ∧ i ∈ ((cfg3.win 3).blk t).view.set := by
  have hi0 : (i 0).val < 50000 := (i 0).isLt
  have hi1 : (i 1).val < 32 := (i 1).isLt
  have hN : grid3.N = 10 := N_3
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, -, e5, e6⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 32 ≤ (i 1).val ∧ (i 1).val < win3_3.index t (1 : Fin 2) * 32 + 32; omega

theorem region3_value (c : Dev nD) :
    (dat3 (F := Ideal) V c).arrAt 3 cfg3.N = KVal.dense2 (V c main_v63) (V c main_arg5) (V c main_arg6) := by
  exact (dat3 (F := Ideal) V c).arrAt_eq_of_cover 3 (KVal.dense2 (V c main_v63) (V c main_arg5) (V c main_arg6))
    (fun t _ => flushed_eq V c t) cover

end Cert.KernelIdeal.KRegion3

end
-- ==== Proof.KHost.lean ====
/-
  The kernel program's result buffer after the whole run, as the composition `KVal.kOut` of the argument arrays: the buffers' contents followed from the first kernel's entry through each kernel (its output array the whole-array function of its input arrays) and each stretch of host operations between them (a scatter-add, a row gather), every other buffer keeping what it held.
-/
import proofs.«100531_j28295244546111_1_alg».proof.Proof.Gen.KernelIdeal.Frame
import proofs.«100531_j28295244546111_1_alg».proof.Proof.Gen.ReferenceIdeal.Read
import proofs.«100531_j28295244546111_1_alg».proof.Proof.KDefs
import proofs.«100531_j28295244546111_1_alg».proof.Proof.KHost7
import proofs.«100531_j28295244546111_1_alg».proof.Proof.KRegion0
import proofs.«100531_j28295244546111_1_alg».proof.Proof.KRegion1
import proofs.«100531_j28295244546111_1_alg».proof.Proof.KRegion2
import proofs.«100531_j28295244546111_1_alg».proof.Proof.KRegion3
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

open Cert.KernelIdeal.KHost7

variable (m : (ℓ : Loc nD τ sig) → Buf (Elt Ideal) ℓ) (ρ : Dev nD → PrngReg)

/-! ## The first kernel's exit -/

theorem W8_v48 (c : Dev nD) : W8 m ρ c (Proc.devRef .tc main_v48) = KVal.kMsg1 (m ((c : Thread nD τ).loc main_arg0)) (m ((c : Thread nD τ).loc main_arg2)) (RW m c) (NM m c) :=
  (W8_arr m ρ c 3).trans ((KRegion0.region0_value (V7 m ρ) c).trans (by
    show KVal.msgOne (W7 m ρ c (Proc.devRef .tc main_v38)) (W7 m ρ c (Proc.devRef .tc main_v47)) (W7 m ρ c (Proc.devRef .tc main_v31)) = _
    rw [W7_v38, W7_v47, W7_v31]; rfl))
theorem W8_v28 (c : Dev nD) : W8 m ρ c (Proc.devRef .tc main_v28) = KVal.kRowP (RW m c) := (W8_of_ne m ρ c main_v28 (by decide)).trans (W7_v28 m ρ c)
theorem W8_v29 (c : Dev nD) : W8 m ρ c (Proc.devRef .tc main_v29) = KVal.kRowP (CL m c) := (W8_of_ne m ρ c main_v29 (by decide)).trans (W7_v29 m ρ c)
/-- The weight column is an input of the first kernel: its array is as entered. -/
theorem W8_v31 (c : Dev nD) : W8 m ρ c (Proc.devRef .tc main_v31) = KVal.kNormCol (NM m c) :=
  ((W8_arr m ρ c 2).trans (((dat0 (V7 m ρ) c).arrAt_in 2 rfl _).trans (A_eq0 (V7 m ρ) c 2))).trans (W7_v31 m ρ c)
theorem W8_arg3 (c : Dev nD) : W8 m ρ c (Proc.devRef .tc main_arg3) = (m ((c : Thread nD τ).loc main_arg3)) := (W8_of_ne m ρ c main_arg3 (by decide)).trans (W7_arg3 m ρ c)
theorem W8_arg4 (c : Dev nD) : W8 m ρ c (Proc.devRef .tc main_arg4) = (m ((c : Thread nD τ).loc main_arg4)) := (W8_of_ne m ρ c main_arg4 (by decide)).trans (W7_arg4 m ρ c)
theorem W8_arg5 (c : Dev nD) : W8 m ρ c (Proc.devRef .tc main_arg5) = (m ((c : Thread nD τ).loc main_arg5)) := (W8_of_ne m ρ c main_arg5 (by decide)).trans (W7_arg5 m ρ c)
theorem W8_arg6 (c : Dev nD) : W8 m ρ c (Proc.devRef .tc main_arg6) = (m ((c : Thread nD τ).loc main_arg6)) := (W8_of_ne m ρ c main_arg6 (by decide)).trans (W7_arg6 m ρ c)

/-! ## The first scatter-add -/

theorem W9_v51 (c : Dev nD) : W9 m ρ c (Proc.devRef .tc main_v51) = KVal.kAgg1 (m ((c : Thread nD τ).loc main_arg0)) (m ((c : Thread nD τ).loc main_arg2)) (RW m c) (CL m c) (NM m c) := by
  dsimp only [W9]
  after_results_simp
  rw [W8_v29, W8_v48]; rfl
theorem W9_v28 (c : Dev nD) : W9 m ρ c (Proc.devRef .tc main_v28) = KVal.kRowP (RW m c) := by
  dsimp only [W9]; after_results_simp; exact W8_v28 m ρ c
theorem W9_v29 (c : Dev nD) : W9 m ρ c (Proc.devRef .tc main_v29) = KVal.kRowP (CL m c) := by
  dsimp only [W9]; after_results_simp; exact W8_v29 m ρ c
theorem W9_v31 (c : Dev nD) : W9 m ρ c (Proc.devRef .tc main_v31) = KVal.kNormCol (NM m c) := by
  dsimp only [W9]; after_results_simp; exact W8_v31 m ρ c
theorem W9_arg3 (c : Dev nD) : W9 m ρ c (Proc.devRef .tc main_arg3) = (m ((c : Thread nD τ).loc main_arg3)) := by
  dsimp only [W9]; after_results_simp; exact W8_arg3 m ρ c
theorem W9_arg4 (c : Dev nD) : W9 m ρ c (Proc.devRef .tc main_arg4) = (m ((c : Thread nD τ).loc main_arg4)) := by
  dsimp only [W9]; after_results_simp; exact W8_arg4 m ρ c
theorem W9_arg5 (c : Dev nD) : W9 m ρ c (Proc.devRef .tc main_arg5) = (m ((c : Thread nD τ).loc main_arg5)) := by
  dsimp only [W9]; after_results_simp; exact W8_arg5 m ρ c
theorem W9_arg6 (c : Dev nD) : W9 m ρ c (Proc.devRef .tc main_arg6) = (m ((c : Thread nD τ).loc main_arg6)) := by
  dsimp only [W9]; after_results_simp; exact W8_arg6 m ρ c

/-! ## The first dense kernel's exit -/

theorem W10_v52 (c : Dev nD) : W10 m ρ c (Proc.devRef .tc main_v52) = KVal.kH1 (m ((c : Thread nD τ).loc main_arg0)) (m ((c : Thread nD τ).loc main_arg2)) (m ((c : Thread nD τ).loc main_arg3)) (m ((c : Thread nD τ).loc main_arg4)) (RW m c) (CL m c) (NM m c) :=
  (W10_arr m ρ c 3).trans ((KRegion1.region1_value (V9 m ρ) c).trans (by
    show KVal.dense1 (W9 m ρ c (Proc.devRef .tc main_v51)) (W9 m ρ c (Proc.devRef .tc main_arg3)) (W9 m ρ c (Proc.devRef .tc main_arg4)) = _
    rw [W9_v51, W9_arg3, W9_arg4]; rfl))
theorem W10_v28 (c : Dev nD) : W10 m ρ c (Proc.devRef .tc main_v28) = KVal.kRowP (RW m c) := (W10_of_ne m ρ c main_v28 (by decide)).trans (W9_v28 m ρ c)
theorem W10_v29 (c : Dev nD) : W10 m ρ c (Proc.devRef .tc main_v29) = KVal.kRowP (CL m c) := (W10_of_ne m ρ c main_v29 (by decide)).trans (W9_v29 m ρ c)
theorem W10_v31 (c : Dev nD) : W10 m ρ c (Proc.devRef .tc main_v31) = KVal.kNormCol (NM m c) := (W10_of_ne m ρ c main_v31 (by decide)).trans (W9_v31 m ρ c)
theorem W10_arg5 (c : Dev nD) : W10 m ρ c (Proc.devRef .tc main_arg5) = (m ((c : Thread nD τ).loc main_arg5)) := (W10_of_ne m ρ c main_arg5 (by decide)).trans (W9_arg5 m ρ c)
theorem W10_arg6 (c : Dev nD) : W10 m ρ c (Proc.devRef .tc main_arg6) = (m ((c : Thread nD τ).loc main_arg6)) := (W10_of_ne m ρ c main_arg6 (by decide)).trans (W9_arg6 m ρ c)

/-! ## The second gather -/

theorem W11_v59 (c : Dev nD) : W11 m ρ c (Proc.devRef .tc main_v59) = KVal.kHj (m ((c : Thread nD τ).loc main_arg0)) (m ((c : Thread nD τ).loc main_arg2)) (m ((c : Thread nD τ).loc main_arg3)) (m ((c : Thread nD τ).loc main_arg4)) (RW m c) (CL m c) (NM m c) := by
  dsimp only [W11]
  after_results_simp
  rw [W10_v52, W10_v28]; rfl
theorem W11_v29 (c : Dev nD) : W11 m ρ c (Proc.devRef .tc main_v29) = KVal.kRowP (CL m c) := by
  dsimp only [W11]; after_results_simp; exact W10_v29 m ρ c
theorem W11_v31 (c : Dev nD) : W11 m ρ c (Proc.devRef .tc main_v31) = KVal.kNormCol (NM m c) := by
  dsimp only [W11]; after_results_simp; exact W10_v31 m ρ c
theorem W11_arg5 (c : Dev nD) : W11 m ρ c (Proc.devRef .tc main_arg5) = (m ((c : Thread nD τ).loc main_arg5)) := by
  dsimp only [W11]; after_results_simp; exact W10_arg5 m ρ c
theorem W11_arg6 (c : Dev nD) : W11 m ρ c (Proc.devRef .tc main_arg6) = (m ((c : Thread nD τ).loc main_arg6)) := by
  dsimp only [W11]; after_results_simp; exact W10_arg6 m ρ c

/-! ## The second transform kernel's exit -/

theorem W12_v60 (c : Dev nD) : W12 m ρ c (Proc.devRef .tc main_v60) = KVal.kMsg2 (m ((c : Thread nD τ).loc main_arg0)) (m ((c : Thread nD τ).loc main_arg2)) (m ((c : Thread nD τ).loc main_arg3)) (m ((c : Thread nD τ).loc main_arg4)) (RW m c) (CL m c) (NM m c) :=
  (W12_arr m ρ c 2).trans ((KRegion2.region2_value (V11 m ρ) c).trans (by
    show KVal.msgTwo (W11 m ρ c (Proc.devRef .tc main_v59)) (W11 m ρ c (Proc.devRef .tc main_v31)) = _
    rw [W11_v59, W11_v31]; rfl))
theorem W12_v29 (c : Dev nD) : W12 m ρ c (Proc.devRef .tc main_v29) = KVal.kRowP (CL m c) := (W12_of_ne m ρ c main_v29 (by decide)).trans (W11_v29 m ρ c)
theorem W12_arg5 (c : Dev nD) : W12 m ρ c (Proc.devRef .tc main_arg5) = (m ((c : Thread nD τ).loc main_arg5)) := (W12_of_ne m ρ c main_arg5 (by decide)).trans (W11_arg5 m ρ c)
theorem W12_arg6 (c : Dev nD) : W12 m ρ c (Proc.devRef .tc main_arg6) = (m ((c : Thread nD τ).loc main_arg6)) := (W12_of_ne m ρ c main_arg6 (by decide)).trans (W11_arg6 m ρ c)

/-! ## The second scatter-add -/

theorem W13_v63 (c : Dev nD) : W13 m ρ c (Proc.devRef .tc main_v63) = KVal.kAgg2 (m ((c : Thread nD τ).loc main_arg0)) (m ((c : Thread nD τ).loc main_arg2)) (m ((c : Thread nD τ).loc main_arg3)) (m ((c : Thread nD τ).loc main_arg4)) (RW m c) (CL m c) (NM m c) := by
  dsimp only [W13]
  after_results_simp
  rw [W12_v29, W12_v60]; rfl
theorem W13_arg5 (c : Dev nD) : W13 m ρ c (Proc.devRef .tc main_arg5) = (m ((c : Thread nD τ).loc main_arg5)) := by
  dsimp only [W13]; after_results_simp; exact W12_arg5 m ρ c
theorem W13_arg6 (c : Dev nD) : W13 m ρ c (Proc.devRef .tc main_arg6) = (m ((c : Thread nD τ).loc main_arg6)) := by
  dsimp only [W13]; after_results_simp; exact W12_arg6 m ρ c

/-! ## The result -/

/-- THE KERNEL PROGRAM'S RESULT as a function of its argument arrays. -/
theorem W14_v64 (c : Dev nD) : W14 m ρ c (Proc.devRef .tc main_v64)
    = KVal.kOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (RW m c) (CL m c) (NM m c) :=
  (W14_arr m ρ c 3).trans ((KRegion3.region3_value (V13 m ρ) c).trans (by
    show KVal.dense2 (W13 m ρ c (Proc.devRef .tc main_v63)) (W13 m ρ c (Proc.devRef .tc main_arg5)) (W13 m ρ c (Proc.devRef .tc main_arg6)) = _
    rw [W13_v63, W13_arg5, W13_arg6]; rfl))

end Cert.KernelIdeal.KHost

end
-- ==== Proof.LibRowScatter.lean ====
/-
  A stablehlo.scatter that ADDS whole rows into a rank-2 table, at the ideal instance, and what padding the updates with
  zero rows does to it (nothing).

  What `segment_sum(upd, idx, N)` of updates `[M, C]` at a vector of `M` row numbers lowers to: a scatter into an operand
  `[N, C]` whose scatter indices are the `[M, 1]` column of row numbers, whose operand axis 0 is inserted and is the one
  scattered axis, whose update axis 1 is the one window axis, the index vector on axis 1 of the scatter indices.  Update
  element `(a, q)` lands on operand element `(idx (a, 0), q)` when that row number, read SIGNED, is in `[0, N)`, and is
  dropped otherwise.  At the ideal instance the result is the operand plus, at each element, the exact sum of the updates
  landing there; a sum does not see zero summands, so update rows that are zero may be added or left out at will.
-/
import Idealize.ShloMosaic.PureOps.ShapeOps
import Idealize.ShloMosaic.PureOps.Contract
import Idealize.ShloMosaic.PureOps.Ideal
import Idealize.ShloMosaic.Lib.ValueIdx

noncomputable section

namespace RowScatter

open Idealize.ShloMosaic Idealize.ShloMosaic.ValueIdx

/-- The dimension numbers of a row scatter: update window axes `[1]`, inserted window axes `[0]`, scatter dims to operand
    dims `[0]`, index vector on axis 1 (each holds by `rfl` for a printed record). -/
structure IsRow {N C M : Nat} (d : ScatterDims ⟨2, ![N, C]⟩ ⟨2, ![M, 1]⟩ ⟨2, ![M, C]⟩) : Prop where
  huw : d.updateWindowDims = [1]
  hiw : d.insertedWindowDims = [0]
  hsd : d.scatterDimsToOperandDims = [0]
  hivd : d.indexVectorDim = 1

/-- Where update element `(a, q)` lands: row `idx (a, 0)` read signed, column `q`, when the row is in range. -/
def land {N C w : Nat} (r : BitVec w) (q : Fin C) : Option ((⟨2, ![N, C]⟩ : Shape).Idx) :=
  if h : 0 ≤ r.toInt ∧ r.toInt < (N : Int) then some (ix2 (⟨r.toInt.toNat, by omega⟩ : Fin N) q) else none

/-- The updates' coordinates read through a one-element list of axes: the list `[0]` reads the row … -/
private theorem coord_of_zero {M C : Nat} (a : Fin M) (q : Fin C) (l : List (Fin 2)) (k : Nat) (h : k < l.length)
    (hl : l = [0]) : ((ix2 a q : (⟨2, ![M, C]⟩ : Shape).Idx) l[k]).val = a.val := by
  subst hl
  obtain rfl : k = 0 := by simpa using h
  rfl

/-- … and the list `[1]` the column. -/
private theorem coord_of_one {M C : Nat} (a : Fin M) (q : Fin C) (l : List (Fin 2)) (k : Nat) (h : k < l.length)
    (hl : l = [1]) : ((ix2 a q : (⟨2, ![M, C]⟩ : Shape).Idx) l[k]).val = q.val := by
  subst hl
  obtain rfl : k = 0 := by simpa using h
  rfl

section Axes
variable {N C M w : Nat} (d : ScatterDims ⟨2, ![N, C]⟩ ⟨2, ![M, 1]⟩ ⟨2, ![M, C]⟩) (hd : IsRow d)
  (idx : IVec ⟨2, ![M, 1]⟩ w) (a : Fin M) (q : Fin C)
include hd

/-- Operand axis 0 is the scattered axis: the start is the row number of update row `a`, read signed. -/
theorem start_zero : d.start (ix2 a q) idx 0 = (idx (ix2 a (0 : Fin 1))).toInt := by
  have hm : (0 : Fin 2) ∈ d.scatterDimsToOperandDims := by rw [hd.hsd]; exact List.mem_singleton.mpr rfl
  unfold ScatterDims.start
  rw [dif_pos hm]
  congr 2
  funext b
  match b with
  | ⟨0, _⟩ =>
    -- scatter-indices axis 0 reads the update's one scatter axis, axis 0
    unfold ScatterDims.siIdx
    rw [dif_neg (by rw [hd.hivd]; simp)]
    unfold ScatterDims.siCoord
    apply Fin.ext
    simp only [Fin.val_cast]
    have hus : d.uScatter = [0] := by
      show Shape.kept _ d.updateWindowDims = [0]
      rw [hd.huw]; rfl
    exact coord_of_zero a q d.uScatter _ _ hus
  | ⟨1, _⟩ =>
    -- the index vector's axis: component 0, the place of operand axis 0 in the scatter-dims map
    unfold ScatterDims.siIdx
    rw [dif_pos (by rw [hd.hivd])]
    apply Fin.ext
    show List.idxOf (0 : Fin 2) d.scatterDimsToOperandDims = 0
    rw [hd.hsd]; simp

/-- Operand axis 0 is inserted: no window coordinate. -/
theorem window_zero : d.window (ix2 a q) 0 = 0 := by
  have hk : (0 : Fin 2) ∉ d.sKept := by
    have hk1 : d.sKept = [1] := by
      show Shape.kept _ d.insertedWindowDims = [1]
      rw [hd.hiw]; rfl
    rw [hk1]; simp
  unfold ScatterDims.window
  rw [dif_neg hk]

/-- Operand axis 1 is not scattered: the start is 0. -/
theorem start_one : d.start (ix2 a q) idx 1 = 0 := by
  have hm : (1 : Fin 2) ∉ d.scatterDimsToOperandDims := by rw [hd.hsd]; simp
  unfold ScatterDims.start
  rw [dif_neg hm]

/-- Operand axis 1 is the one window axis: the window coordinate is the update's column. -/
theorem window_one : d.window (ix2 a q) 1 = q.val := by
  have hk : (1 : Fin 2) ∈ d.sKept := by
    have hk1 : d.sKept = [1] := by
      show Shape.kept _ d.insertedWindowDims = [1]
      rw [hd.hiw]; rfl
    rw [hk1]; simp
  unfold ScatterDims.window
  rw [dif_pos hk]
  exact coord_of_one a q d.updateWindowDims _ _ hd.huw

end Axes

/-- THE ROW SCATTER'S RESULT INDEX in closed form. -/
theorem resultIdx?_eq {N C M w : Nat} (d : ScatterDims ⟨2, ![N, C]⟩ ⟨2, ![M, 1]⟩ ⟨2, ![M, C]⟩) (hd : IsRow d)
    (idx : IVec ⟨2, ![M, 1]⟩ w) (a : Fin M) (q : Fin C) :
    d.resultIdx? (ix2 a q) idx = land (N := N) (idx (ix2 a (0 : Fin 1))) q := by
  have h0 : d.start (ix2 a q) idx 0 + d.window (ix2 a q) 0 = (idx (ix2 a (0 : Fin 1))).toInt := by
    rw [start_zero d hd, window_zero d hd]; simp
  have h1 : d.start (ix2 a q) idx 1 + d.window (ix2 a q) 1 = (q.val : Int) := by
    rw [start_one d hd, window_one d hd]; simp
  unfold ScatterDims.resultIdx? land
  by_cases h : 0 ≤ (idx (ix2 a (0 : Fin 1))).toInt ∧ (idx (ix2 a (0 : Fin 1))).toInt < (N : Int)
  · have hall : ∀ b, 0 ≤ d.start (ix2 a q) idx b + d.window (ix2 a q) b ∧
        d.start (ix2 a q) idx b + d.window (ix2 a q) b < (⟨2, ![N, C]⟩ : Shape).size b := fun b => by
      match b with
      | ⟨0, _⟩ =>
        show 0 ≤ d.start (ix2 a q) idx 0 + d.window (ix2 a q) 0 ∧ d.start (ix2 a q) idx 0 + d.window (ix2 a q) 0 < (N : Int)
        rw [h0]; exact h
      | ⟨1, _⟩ =>
        show 0 ≤ d.start (ix2 a q) idx 1 + d.window (ix2 a q) 1 ∧ d.start (ix2 a q) idx 1 + d.window (ix2 a q) 1 < (C : Int)
        rw [h1]; have := q.isLt; omega
    rw [dif_pos hall, dif_pos h]
    congr 1
    funext b
    match b with
    | ⟨0, _⟩ =>
      apply Fin.ext
      show (d.start (ix2 a q) idx 0 + d.window (ix2 a q) 0).toNat = _
      rw [h0]
    | ⟨1, _⟩ =>
      apply Fin.ext
      show (d.start (ix2 a q) idx 1 + d.window (ix2 a q) 1).toNat = q.val
      rw [h1]; simp
  · have hnot : ¬ ∀ b, 0 ≤ d.start (ix2 a q) idx b + d.window (ix2 a q) b ∧
        d.start (ix2 a q) idx b + d.window (ix2 a q) b < (⟨2, ![N, C]⟩ : Shape).size b := fun hall => by
      have := hall 0
      rw [h0] at this
      exact h this
    rw [dif_neg hnot, dif_neg h]

/-- A short update index as an index of the longer updates: the same row and column. -/
def emb {M₀ M C : Nat} (hM : M₀ ≤ M) (j : (⟨2, ![M₀, C]⟩ : Shape).Idx) : (⟨2, ![M, C]⟩ : Shape).Idx :=
  ix2 (Fin.castLE hM (⟨(j 0).val, idx2_lt0 j⟩ : Fin M₀)) (⟨(j 1).val, idx2_lt1 j⟩ : Fin C)

/-- PADDING WITH ZERO ROWS CHANGES NOTHING.  Two row scatters into the same operand, one of `M₀` update rows and one of
    `M ≥ M₀`: if the longer one's first `M₀` rows and row numbers are the shorter one's and its other rows are zero, the two
    results are equal (at the ideal instance: the exact sums agree, the extra summands being zero). -/
theorem scatterAdd_pad {N C M₀ M w : Nat} (hM : M₀ ≤ M)
    (dK : ScatterDims ⟨2, ![N, C]⟩ ⟨2, ![M, 1]⟩ ⟨2, ![M, C]⟩) (dR : ScatterDims ⟨2, ![N, C]⟩ ⟨2, ![M₀, 1]⟩ ⟨2, ![M₀, C]⟩)
    (hK : IsRow dK) (hR : IsRow dR)
    (x : (⟨2, ![N, C]⟩ : Shape).Idx → EReal)
    (iK : IVec ⟨2, ![M, 1]⟩ w) (iR : IVec ⟨2, ![M₀, 1]⟩ w)
    (uK : (⟨2, ![M, C]⟩ : Shape).Idx → EReal) (uR : (⟨2, ![M₀, C]⟩ : Shape).Idx → EReal)
    (hidx : ∀ r : Fin M₀, iK (ix2 (Fin.castLE hM r) (0 : Fin 1)) = iR (ix2 r (0 : Fin 1)))
    (hupd : ∀ (r : Fin M₀) (q : Fin C), uK (ix2 (Fin.castLE hM r) q) = uR (ix2 r q))
    (hpad : ∀ (r : Fin M) (q : Fin C), M₀ ≤ r.val → uK (ix2 r q) = 0) :
    Host.scatterAdd (F := Ideal) (φ := .f32) dK x iK uK = Host.scatterAdd (F := Ideal) (φ := .f32) dR x iR uR := by
  show Ideal.hostScatterAdd dK x iK uK = Ideal.hostScatterAdd dR x iR uR
  unfold Ideal.hostScatterAdd
  funext i
  congr 1
  symm
  -- the short sum's indices embed into the longer sum's; the longer sum's other summands are zero
  refine Finset.sum_bij_ne_zero (fun j _ _ => emb hM j) ?_ ?_ ?_ ?_
  · -- a short update landing on `i` lands on `i` as a long one: same row number, same column
    intro j
    obtain ⟨p, q, rfl⟩ : ∃ (p : Fin M₀) (q : Fin C), j = ix2 p q := ⟨_, _, eq_ix2 j⟩
    intro h₁ _
    rw [Finset.mem_filter] at h₁ ⊢
    refine ⟨Finset.mem_univ _, ?_⟩
    have h := h₁.2
    rw [resultIdx?_eq dR hR] at h
    show dK.resultIdx? (ix2 (Fin.castLE hM p) q) iK = some i
    rw [resultIdx?_eq dK hK, hidx]
    exact h
  · -- the embedding is injective: it keeps both coordinates
    intro j₁ _ _ j₂ _ _ h
    obtain ⟨p₁, q₁, rfl⟩ : ∃ (p : Fin M₀) (q : Fin C), j₁ = ix2 p q := ⟨_, _, eq_ix2 j₁⟩
    obtain ⟨p₂, q₂, rfl⟩ : ∃ (p : Fin M₀) (q : Fin C), j₂ = ix2 p q := ⟨_, _, eq_ix2 j₂⟩
    have h0 : (emb hM (ix2 p₁ q₁) 0).val = (emb hM (ix2 p₂ q₂) 0).val := by rw [h]
    have h1 : (emb hM (ix2 p₁ q₁) 1).val = (emb hM (ix2 p₂ q₂) 1).val := by rw [h]
    have hp : p₁ = p₂ := Fin.ext h0
    have hq : q₁ = q₂ := Fin.ext h1
    rw [hp, hq]
  · -- a nonzero long update has its row below `M₀` (the rows from `M₀` on are zero), so it is a short one
    intro b
    obtain ⟨r, q, rfl⟩ : ∃ (r : Fin M) (q : Fin C), b = ix2 r q := ⟨_, _, eq_ix2 b⟩
    intro hb hne
    have hr : r.val < M₀ := by
      by_contra hge
      exact hne (hpad r q (by omega))
    have hcast : Fin.castLE hM (⟨r.val, hr⟩ : Fin M₀) = r := Fin.ext rfl
    rw [Finset.mem_filter] at hb
    have h := hb.2
    rw [resultIdx?_eq dK hK, ← hcast, hidx] at h
    refine ⟨ix2 (⟨r.val, hr⟩ : Fin M₀) q, ?_, ?_, ?_⟩
    · rw [Finset.mem_filter]
      refine ⟨Finset.mem_univ _, ?_⟩
      rw [resultIdx?_eq dR hR]
      exact h
    · rw [← hupd, hcast]; exact hne
    · show ix2 (Fin.castLE hM (⟨r.val, hr⟩ : Fin M₀)) q = ix2 r q
      rw [hcast]
  · -- the summands agree
    intro j
    obtain ⟨p, q, rfl⟩ : ∃ (p : Fin M₀) (q : Fin C), j = ix2 p q := ⟨_, _, eq_ix2 j⟩
    intro _ _
    exact (hupd p q).symm

end RowScatter

end
-- ==== Proof.LibRowGather.lean ====
/-
  A stablehlo.gather that picks whole rows of a rank-2 table, read at an index.

  What `table[idx]` of a table `[N, C]` at a vector of `n` row numbers lowers to: a gather whose start indices are the
  `[n, 1]` column of row numbers, whose operand axis 0 is collapsed and start-indexed, whose operand axis 1 is the one
  offset axis (result axis 1), with slice sizes `[1, C]`, no batching axes and the index vector on axis 1 of the
  start indices.  Result element `(p, q)` is the table at row "start index `p` read SIGNED and CLAMPED into
  `[0, N − 1]`" and column `q`: on axis 0 the slice has one row, so the clamp is to `N − 1`; on axis 1 the slice is the
  whole axis, the start is 0 and the offset coordinate is `q`.
-/
import Idealize.ShloMosaic.PureOps.ShapeOps
import Idealize.ShloMosaic.Lib.ValueIdx

namespace RowGather

open Idealize.ShloMosaic Idealize.ShloMosaic.ValueIdx

/-- THE ROW GATHER READ AT `(p, q)`.  `d` is any record of dimension numbers over an operand `[N, C]`, start indices
    `[n, 1]` and a result `[n, C]` whose lists are the row-take's (`hoff` … `hivd`: each holds by `rfl` for a printed
    record): offset axes `[1]`, collapsed slice axes `[0]`, no operand batching axes, start index map `[0]`, index vector
    on axis 1.  The result at `(p, q)` is the operand at row `min (toInt (idx (p, 0))).toNat (N − 1)` — the start index read
    as a signed integer, a negative one reading row 0 and one past the end reading the last row — and column `q`. -/
theorem rowGather_apply {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p (0 : Fin 1))).toInt.toNat (N - 1), by omega⟩ q) := by
  unfold Host.gather
  congr 1
  funext a
  have key0 : ∀ (l : List (Fin 2)) (k : Nat) (h : k < l.length), l = [0] →
      ((ix2 p q : (⟨2, ![n, C]⟩ : Shape).Idx) l[k]).val = p.val := fun l k h hl => by
    subst hl
    obtain rfl : k = 0 := by simpa using h
    rfl
  have key1 : ∀ (l : List (Fin 2)) (k : Nat) (h : k < l.length), l = [1] →
      ((ix2 p q : (⟨2, ![n, C]⟩ : Shape).Idx) l[k]).val = q.val := fun l k h hl => by
    subst hl
    obtain rfl : k = 0 := by simpa using h
    rfl
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 p (0 : Fin 1))).toInt.toNat (N - 1)
    rw [hsl]
    congr 3
    congr 1
    funext b
    match b with
    | ⟨0, _⟩ =>
      -- the batch coordinate: result axis 0 is the one batch axis, reading the start indices' axis 0
      unfold GatherDims.siIdx
      rw [dif_neg (by rw [hivd]; simp)]
      unfold GatherDims.siCoord
      apply Fin.ext
      simp only [Fin.val_cast]
      have hbatch : d.batchDims = [0] := by
        show Shape.kept _ d.offsetDims = [0]
        rw [hoff]; rfl
      exact key0 d.batchDims _ _ hbatch
    | ⟨1, _⟩ =>
      -- the index vector's axis: component 0 of the start index, the place of operand axis 0 in the start index map
      unfold GatherDims.siIdx
      rw [dif_pos (by rw [hivd])]
      apply Fin.ext
      show List.idxOf (0 : Fin 2) d.startIndexMap = 0
      rw [hsim]; simp
  | ⟨1, _⟩ =>
    -- axis 1 is not start-indexed (start 0) and is the one kept axis: the offset coordinate is the result's on axis 1
    apply Fin.ext
    have hk : (1 : Fin 2) ∈ d.sKept := by
      rw [GatherDims.mem_sKept, hcoll]; exact ⟨by simp, hb 1⟩
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    unfold GatherDims.start GatherDims.offCoord
    rw [dif_neg hm, dif_pos hk]
    simp only [Nat.add_zero, Nat.zero_add]
    exact key1 d.offsetDims _ _ hoff

end RowGather
-- ==== Proof.BridgeMsg1.lean ====
/-
  The first round's messages: on the 850000 real messages the kernel's transform of the gathered rows is the reference's message, entry by entry (both read the same node row, mask bit and weight, and apply the same operations in the same order), and on the 1968 padding messages the weight is zero, so the message is zero.
-/
import proofs.«100531_j28295244546111_1_alg».proof.Proof.Gen.ReferenceIdeal.Read
import proofs.«100531_j28295244546111_1_alg».proof.Proof.KDefs
import proofs.«100531_j28295244546111_1_alg».proof.Proof.LibRowGather
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Predicate
import Idealize.ShloMosaic.PureOps.Ideal.Laws

noncomputable section

namespace Cert.Bridge.Msg1

open Idealize.ShloMosaic Idealize.ShloMosaic.ValueIdx
open Cert.KernelIdeal (S50000x64 S2x800000 S50000 S64x128 S128 S128x32 S32 S850000 S851968 S851968x1 S851968x64 S851968x128 S50000x128 S50000x32)
open Cert.ReferenceIdeal.Read

/-- The message sources, the message targets and the edge weights (850000 of each), as the reference computes them from
    the edge list. -/
abbrev RW (x1 : IVec S2x800000 32) : IVec S850000 32 := val_main_v3 (F := Ideal) x1
abbrev CL (x1 : IVec S2x800000 32) : IVec S850000 32 := val_main_v6 (F := Ideal) x1
abbrev NM (x1 : IVec S2x800000 32) : FVec Ideal S850000 .f32 := val_main_v27 (F := Ideal) x1

/-- Message `r` of the unpadded 850000 among the padded 851968. -/
abbrev up (r : Fin 850000) : Fin 851968 := Fin.castLE (by decide) r

variable (x0 : FVec Ideal S50000x64 .f32) (x1 : IVec S2x800000 32) (x2 : IVec S50000 1)

/-! ## The weight column: the padded weights on a real message and on a padding message -/

/-- The padded weight column on a real message. -/
theorem normCol_in (nm : FVec Ideal S850000 .f32) (r : Fin 850000) :
    Cert.KernelIdeal.KVal.kNormCol nm (ix2 (up r) (0 : Fin 1)) = nm (ix1 r) := by
  unfold Cert.KernelIdeal.KVal.kNormCol
  refine (shapeCast_apply _ Cert.KernelIdeal.Gen.shapeCasts_S851968_S851968x1 (ix2 (up r) (0 : Fin 1)) (ix1 (up r)) ?_).trans ?_
  · rw [Shape.rowMajor_val_two, Shape.rowMajor_val_one]
    show (up r).val = (up r).val * 1 + 0
    omega
  · refine pad_apply_of_inside _ _ _ nm _ Cert.KernelIdeal.Gen.pads_S850000_S851968_019680 Cert.KernelIdeal.Gen.h_S_ (ix1 (up r)) (ix1 r) ?_
    intro a
    match a with
    | ⟨0, _⟩ => show r.val = 0 + r.val * (0 + 1); omega

/-- The padded weight column on a padding message: the pad's constant, the integer zero read as a float, is zero. -/
theorem normCol_out (nm : FVec Ideal S850000 .f32) (r : Fin 851968) (h : 850000 ≤ r.val) :
    Cert.KernelIdeal.KVal.kNormCol nm (ix2 r (0 : Fin 1)) = 0 := by
  unfold Cert.KernelIdeal.KVal.kNormCol
  refine (shapeCast_apply _ Cert.KernelIdeal.Gen.shapeCasts_S851968_S851968x1 (ix2 r (0 : Fin 1)) (ix1 r) ?_).trans ?_
  · rw [Shape.rowMajor_val_two, Shape.rowMajor_val_one]
    show r.val = r.val * 1 + 0
    omega
  · refine (pad_apply_of_not_inside _ _ _ nm _ Cert.KernelIdeal.Gen.pads_S850000_S851968_019680 Cert.KernelIdeal.Gen.h_S_ (ix1 r) (0 : Fin 1) ?_).trans ?_
    · intro hin
      have h3 := hin.2.2
      have h4 : (r.val - 0) / (0 + 1) < 850000 := h3
      omega
    · show ((((0#32 : BitVec 32).toInt : ℤ) : ℝ) : EReal) = 0
      have : (0#32 : BitVec 32).toInt = 0 := by decide
      rw [this, Int.cast_zero, EReal.coe_zero]

/-! ## The start index: a negative source wraps once; the kernel pads the sources first -/

/-- A start index as the take reads it: a negative word wraps once by 50000. -/
def normalised (w : BitVec 32) : BitVec 32 := Scalar.select (IntOp.cmpi .slt w 0#32) (IntOp.addi w 50000#32) w

/-- The kernel's start-index column at a message is the normalised padded source. -/
theorem kIdx_apply (rp : IVec S851968 32) (p : Fin 851968) :
    Cert.KernelIdeal.KVal.kIdx rp (ix2 p (0 : Fin 1)) = normalised (rp (ix1 p)) := by
  unfold Cert.KernelIdeal.KVal.kIdx
  refine (broadcastInDim_apply _ Cert.KernelIdeal.Gen.bcast_S851968_S851968x1_0 _ (ix2 p (0 : Fin 1)) (ix1 p) ?_).trans ?_
  · intro a
    match a with
    | ⟨0, _⟩ => show p.val = if (851968 : Nat) = 1 then 0 else p.val; rw [if_neg (by decide)]
  · rfl

/-- The padded sources on a real message. -/
theorem kRowP_in (rw : IVec S850000 32) (r : Fin 850000) :
    Cert.KernelIdeal.KVal.kRowP rw (ix1 (up r)) = rw (ix1 r) := by
  unfold Cert.KernelIdeal.KVal.kRowP
  refine pad_apply_of_inside _ _ _ rw _ Cert.KernelIdeal.Gen.pads_S850000_S851968_019680 Cert.KernelIdeal.Gen.h_S_ (ix1 (up r)) (ix1 r) ?_
  intro a
  match a with
  | ⟨0, _⟩ => show r.val = 0 + r.val * (0 + 1); omega

theorem idx33 (r : Fin 850000) : idx_main_v33 (ix2 r (0 : Fin 1)) = ix1 r := by
  funext a; match a with | ⟨0, _⟩ => rfl
theorem idx40 (r : Fin 850000) : idx_main_v40 (ix2 r (0 : Fin 1)) = ix1 r := by
  funext a; match a with | ⟨0, _⟩ => rfl

/-- The reference's start-index column (the row take's) at a message. -/
theorem v33_apply (r : Fin 850000) :
    val_main_v33 (F := Ideal) x1 (ix2 r (0 : Fin 1)) = normalised (RW x1 (ix1 r)) := by
  rw [val_main_v33_apply, val_main_v32_apply, val_main_v29_apply, val_main_v31_apply, val_main_v28_apply,
    val_main_v30_apply, val_main_c_5_apply, val_main_c_6_apply, idx33]
  rfl

/-- The reference's start-index column (the mask take's) at a message. -/
theorem v40_apply (r : Fin 850000) :
    val_main_v40 (F := Ideal) x1 (ix2 r (0 : Fin 1)) = normalised (RW x1 (ix1 r)) := by
  rw [val_main_v40_apply, val_main_v39_apply, val_main_v36_apply, val_main_v38_apply, val_main_v35_apply,
    val_main_v37_apply, val_main_c_7_apply, val_main_c_8_apply, idx40]
  rfl

/-! ## The node row each message reads -/

/-- The table row a start index reads: the word read signed, clamped into the 50000 rows. -/
def rowOf (w : BitVec 32) : Fin 50000 := ⟨min w.toInt.toNat 49999, by omega⟩

theorem take_row {α : Type} (x : S50000x64.Idx → α) (w w' : BitVec 32) (e : w = w') (q : Fin 64)
    (hp : min w.toInt.toNat (50000 - 1) < 50000) :
    x (ix2 (⟨min w.toInt.toNat (50000 - 1), hp⟩ : Fin 50000) q) = x (ix2 (rowOf w') q) := by
  subst e; rfl

theorem take_entry {α : Type} (x : S50000.Idx → α) (w w' : BitVec 32) (e : w = w')
    (hp : min w.toInt.toNat (50000 - 1) < 50000) :
    x (Shape.Idx.ofFin (⟨min w.toInt.toNat (50000 - 1), hp⟩ : Fin 50000)) = x (ix1 (rowOf w')) := by
  subst e
  exact congrArg x (funext fun a => match a with | ⟨0, _⟩ => rfl)

theorem ixP_eq {n : Nat} (p : Fin n) : StableHlo.Predicate.ixP p = ix2 p (0 : Fin 1) := by
  funext a; match a with | ⟨0, _⟩ => rfl | ⟨1, _⟩ => rfl

theorem ofFin_eq {n : Nat} (p : Fin n) : Shape.Idx.ofFin p = ix1 p := by
  funext a; match a with | ⟨0, _⟩ => rfl

/-- The kernel's start index on a real message. -/
theorem kStart (rw : IVec S850000 32) (r : Fin 850000) :
    Cert.KernelIdeal.KVal.kIdx (Cert.KernelIdeal.KVal.kRowP rw) (ix2 (up r) (0 : Fin 1)) = normalised (rw (ix1 r)) :=
  (kIdx_apply _ _).trans (congrArg normalised (kRowP_in rw r))

/-- The node row a real message reads in the kernel. -/
theorem kXj_apply (rw : IVec S850000 32) (r : Fin 850000) (q : Fin 64) :
    Cert.KernelIdeal.KVal.kXj x0 rw (ix2 (up r) q) = x0 (ix2 (rowOf (normalised (rw (ix1 r)))) q) := by
  unfold Cert.KernelIdeal.KVal.kXj
  exact (RowGather.rowGather_apply Cert.KernelIdeal.gather_S50000x64_S851968x1_S851968x64_1_0_n_n_0_1_164 rfl rfl rfl rfl rfl
    x0 (Cert.KernelIdeal.KVal.kIdx (Cert.KernelIdeal.KVal.kRowP rw)) (up r) q (by decide)).trans
    (take_row x0 _ _ (kStart rw r) q _)

/-- The node row a message reads in the reference. -/
theorem v34_apply (r : Fin 850000) (q : Fin 64) :
    val_main_v34 (F := Ideal) x0 x1 (ix2 r q) = x0 (ix2 (rowOf (normalised (RW x1 (ix1 r)))) q) := by
  unfold val_main_v34
  exact (RowGather.rowGather_apply Cert.ReferenceIdeal.gather_S50000x64_S850000x1_S850000x64_1_0_n_n_0_1_164 rfl rfl rfl rfl rfl
    x0 (val_main_v33 (F := Ideal) x1) r q (by decide)).trans
    (take_row x0 _ _ (v33_apply x1 r) q _)

/-! ## The mask bit each message reads -/

/-- The mask bit a real message reads in the kernel, as a float. -/
theorem kP_apply (rw : IVec S850000 32) (r : Fin 850000) :
    Cert.KernelIdeal.KVal.kP x2 rw (ix2 (up r) (0 : Fin 1))
      = FloatOps.uitofp (F := Ideal) .f32 (x2 (ix1 (rowOf (normalised (rw (ix1 r)))))) := by
  unfold Cert.KernelIdeal.KVal.kP
  refine (shapeCast_apply _ Cert.KernelIdeal.Gen.shapeCasts_S851968_S851968x1 (ix2 (up r) (0 : Fin 1)) (Shape.Idx.ofFin (up r)) ?_).trans ?_
  · rw [Shape.rowMajor_val_two, Shape.rowMajor_val_one]
    show (up r).val = (up r).val * 1 + 0
    omega
  · show FloatOps.uitofp (F := Ideal) .f32 (Host.gather Cert.KernelIdeal.gather_S50000_S851968x1_S851968_n_0_n_n_0_1_1 x2
        (Cert.KernelIdeal.KVal.kIdx (Cert.KernelIdeal.KVal.kRowP rw)) (Shape.Idx.ofFin (up r))) = _
    refine congrArg (FloatOps.uitofp (F := Ideal) .f32) ?_
    exact (StableHlo.Predicate.gather_take Cert.KernelIdeal.gather_S50000_S851968x1_S851968_n_0_n_n_0_1_1 rfl rfl rfl rfl
      x2 (Cert.KernelIdeal.KVal.kIdx (Cert.KernelIdeal.KVal.kRowP rw)) (up r) (by decide)).trans
      (take_entry x2 _ _ ((congrArg _ (ixP_eq (up r))).trans (kStart rw r)) _)

theorem idx43 (r : Fin 850000) : idx_main_v43 (ix2 r (0 : Fin 1)) = Shape.Idx.ofFin r := by
  funext a; match a with | ⟨0, _⟩ => rfl

/-- The mask bit a message reads in the reference, as a float. -/
theorem v43_apply (r : Fin 850000) :
    val_main_v43 (F := Ideal) x1 x2 (ix2 r (0 : Fin 1))
      = FloatOps.uitofp (F := Ideal) .f32 (x2 (ix1 (rowOf (normalised (RW x1 (ix1 r)))))) := by
  rw [val_main_v43_apply, val_main_v42_apply, idx43]
  refine congrArg (FloatOps.uitofp (F := Ideal) .f32) ?_
  unfold val_main_v41
  exact (StableHlo.Predicate.gather_take Cert.ReferenceIdeal.gather_S50000_S850000x1_S850000_n_0_n_n_0_1_1 rfl rfl rfl rfl
    x2 (val_main_v40 (F := Ideal) x1) r (by decide)).trans
    (take_entry x2 _ _ ((congrArg _ (ixP_eq r)).trans (v40_apply x1 r)) _)

/-! ## The message from the entries it reads -/

/-- One message: the weight times the masked blend of the transformed entry and the entry itself, with the program's
    four float literals. -/
def msgAt (w p a : EReal) : EReal :=
  w * (p * ((Ideal.ofBits .f32 0x406DF854#32 * a - Ideal.ofBits .f32 0x3F800000#32)
      * Ideal.ofBits .f32 0x3F14FC6D#32 + Ideal.ofBits .f32 0x3F000000#32)
    + (Ideal.ofBits .f32 0x3F800000#32 - p) * a)

/-- The kernel's first-round message on a real message, from the entries it reads. -/
theorem kMsg1_apply (rw : IVec S850000 32) (nm : FVec Ideal S850000 .f32) (r : Fin 850000) (q : Fin 64) :
    Cert.KernelIdeal.KVal.kMsg1 x0 x2 rw nm (ix2 (up r) q)
      = msgAt (nm (ix1 r)) (FloatOps.uitofp (F := Ideal) .f32 (x2 (ix1 (rowOf (normalised (rw (ix1 r)))))))
          (x0 (ix2 (rowOf (normalised (rw (ix1 r)))) q)) := by
  unfold Cert.KernelIdeal.KVal.kMsg1 Cert.KernelIdeal.KVal.msgOne
  show msgAt (Cert.KernelIdeal.KVal.kNormCol nm (ix2 (up r) (0 : Fin 1)))
    (Cert.KernelIdeal.KVal.kP x2 rw (ix2 (up r) (0 : Fin 1))) (Cert.KernelIdeal.KVal.kXj x0 rw (ix2 (up r) q)) = _
  rw [normCol_in, kP_apply, kXj_apply]

theorem idx53 (r : Fin 850000) (q : Fin 64) : idx_main_v53 (ix2 r q) = ix2 r (0 : Fin 1) := by
  funext a; match a with | ⟨0, _⟩ => rfl | ⟨1, _⟩ => rfl
theorem idx57 (r : Fin 850000) (q : Fin 64) : idx_main_v57 (ix2 r q) = ix2 r (0 : Fin 1) := by
  funext a; match a with | ⟨0, _⟩ => rfl | ⟨1, _⟩ => rfl
theorem idx60 (r : Fin 850000) (q : Fin 64) : idx_main_v60 (ix2 r q) = ix2 r (0 : Fin 1) := by
  funext a; match a with | ⟨0, _⟩ => rfl | ⟨1, _⟩ => rfl
theorem idx52 (r : Fin 850000) : idx_main_v52 (ix2 r (0 : Fin 1)) = ix1 r := by
  funext a; match a with | ⟨0, _⟩ => rfl

/-- The reference's first-round message, from the entries it reads. -/
theorem v61_apply (r : Fin 850000) (q : Fin 64) :
    val_main_v61 (F := Ideal) x0 x1 x2 (ix2 r q)
      = msgAt (NM x1 (ix1 r)) (FloatOps.uitofp (F := Ideal) .f32 (x2 (ix1 (rowOf (normalised (RW x1 (ix1 r)))))))
          (x0 (ix2 (rowOf (normalised (RW x1 (ix1 r)))) q)) := by
  rw [val_main_v61_apply, val_main_v60_apply, val_main_v52_apply, val_main_v59_apply, val_main_v54_apply,
    val_main_v58_apply, val_main_v57_apply, val_main_v56_apply, val_main_v55_apply, val_main_v53_apply,
    val_main_v51_apply, val_main_v50_apply, val_main_v49_apply, val_main_v48_apply, val_main_v47_apply,
    val_main_v46_apply, val_main_v45_apply, val_main_v44_apply, val_main_cst_9_apply, val_main_cst_10_apply,
    val_main_cst_11_apply, val_main_cst_12_apply, val_main_cst_13_apply,
    idx53, idx57, idx60, idx52, v43_apply, v34_apply]
  rfl

/-! ## The target column -/

/-- A padded index vector kept as a column, at a real message. -/
theorem col_in (v : IVec S850000 32) (r : Fin 850000) :
    (broadcastInDim S851968x1 ![0] Cert.KernelIdeal.Gen.bcast_S851968_S851968x1_0 (Cert.KernelIdeal.KVal.kRowP v) : IVec S851968x1 32) (ix2 (up r) (0 : Fin 1))
      = v (ix1 r) := by
  refine (broadcastInDim_apply _ Cert.KernelIdeal.Gen.bcast_S851968_S851968x1_0 _ (ix2 (up r) (0 : Fin 1)) (ix1 (up r)) ?_).trans (kRowP_in v r)
  intro a
  match a with
  | ⟨0, _⟩ => show (up r).val = if (851968 : Nat) = 1 then 0 else (up r).val; rw [if_neg (by decide)]

theorem idx63 (r : Fin 850000) : idx_main_v63 (ix2 r (0 : Fin 1)) = ix1 r := by
  funext a; match a with | ⟨0, _⟩ => rfl
theorem idx82 (r : Fin 850000) : idx_main_v82 (ix2 r (0 : Fin 1)) = ix1 r := by
  funext a; match a with | ⟨0, _⟩ => rfl

/-- On a real message the kernel's first-round message is the reference's. -/
theorem msg1_eq (r : Fin 850000) (q : Fin 64) :
    Cert.KernelIdeal.KVal.kMsg1 x0 x2 (RW x1) (NM x1) (ix2 (up r) q) = val_main_v61 (F := Ideal) x0 x1 x2 (ix2 r q) :=
  (kMsg1_apply x0 x2 (RW x1) (NM x1) r q).trans (v61_apply x0 x1 x2 r q).symm

/-- On a padding message the weight is zero, and so is the message. -/
theorem msg1_pad (r : Fin 851968) (q : Fin 64) (h : 850000 ≤ r.val) :
    Cert.KernelIdeal.KVal.kMsg1 x0 x2 (RW x1) (NM x1) (ix2 r q) = 0 := by
  unfold Cert.KernelIdeal.KVal.kMsg1 Cert.KernelIdeal.KVal.msgOne
  show Cert.KernelIdeal.KVal.kNormCol (NM x1) (ix2 r (0 : Fin 1)) * _ = 0
  rw [normCol_out (NM x1) r h, zero_mul]

/-- The padded target column agrees with the reference's target column on the real messages (the first scatter's). -/
theorem tgt_eq_v63 (r : Fin 850000) :
    (broadcastInDim S851968x1 ![0] Cert.KernelIdeal.Gen.bcast_S851968_S851968x1_0 (Cert.KernelIdeal.KVal.kRowP (CL x1)) : IVec S851968x1 32) (ix2 (up r) (0 : Fin 1))
      = val_main_v63 (F := Ideal) x1 (ix2 r (0 : Fin 1)) := by
  rw [val_main_v63_apply, idx63]
  exact col_in (CL x1) r

/-- The same for the second scatter's column. -/
theorem tgt_eq_v82 (r : Fin 850000) :
    (broadcastInDim S851968x1 ![0] Cert.KernelIdeal.Gen.bcast_S851968_S851968x1_0 (Cert.KernelIdeal.KVal.kRowP (CL x1)) : IVec S851968x1 32) (ix2 (up r) (0 : Fin 1))
      = val_main_v82 (F := Ideal) x1 (ix2 r (0 : Fin 1)) := by
  rw [val_main_v82_apply, idx82]
  exact col_in (CL x1) r

end Cert.Bridge.Msg1

end
-- ==== Proof.BridgeMsg2.lean ====
/-
  The second round's messages, for ANY table of node rows `h`: on the 850000 real messages the kernel's `(−weight) · h[source]` is the reference's product of the negated weight column with its own gather of `h`, entry by entry (both read the same row of `h`, and `0 − x = −x`), and on the 1968 padding messages the weight is zero, so the message is zero.
-/
import proofs.«100531_j28295244546111_1_alg».proof.Proof.Gen.ReferenceIdeal.Read
import proofs.«100531_j28295244546111_1_alg».proof.Proof.KDefs
import proofs.«100531_j28295244546111_1_alg».proof.Proof.LibRowGather
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Predicate
import Idealize.ShloMosaic.PureOps.Ideal.Laws

noncomputable section

namespace Cert.Bridge.Msg2

open Idealize.ShloMosaic Idealize.ShloMosaic.ValueIdx
open Cert.KernelIdeal (S50000x64 S2x800000 S50000 S64x128 S128 S128x32 S32 S850000 S851968 S851968x1 S851968x64 S851968x128 S50000x128 S50000x32)
open Cert.ReferenceIdeal.Read

/-- The message sources, the message targets and the edge weights (850000 of each), as the reference computes them from
    the edge list. -/
abbrev RW (x1 : IVec S2x800000 32) : IVec S850000 32 := val_main_v3 (F := Ideal) x1
abbrev CL (x1 : IVec S2x800000 32) : IVec S850000 32 := val_main_v6 (F := Ideal) x1
abbrev NM (x1 : IVec S2x800000 32) : FVec Ideal S850000 .f32 := val_main_v27 (F := Ideal) x1

/-- Message `r` of the unpadded 850000 among the padded 851968. -/
abbrev up (r : Fin 850000) : Fin 851968 := Fin.castLE (by decide) r

variable (x1 : IVec S2x800000 32) (h : FVec Ideal S50000x128 .f32)

/-! ## The padded weight column -/

/-- The weight column at a real message is the weight. -/
theorem kNormCol_real (nm : FVec Ideal S850000 .f32) (r : Fin 850000) :
    Cert.KernelIdeal.KVal.kNormCol nm (ix2 (up r) (0 : Fin 1)) = nm (ix1 r) := by
  unfold Cert.KernelIdeal.KVal.kNormCol
  rw [shapeCast_apply _ _ (ix2 (up r) (0 : Fin 1)) (ix1 (up r)) (by
    rw [Shape.rowMajor_val_two, Shape.rowMajor_val_one]
    show r.val = r.val * 1 + 0
    omega)]
  exact pad_apply_of_inside _ _ _ nm _ _ _ (ix1 (up r)) (ix1 r) (by
    intro a
    have ha : a = 0 := Subsingleton.elim _ _
    subst ha
    show r.val = 0 + r.val * (0 + 1)
    omega)

/-- The weight column at a padding message is zero. -/
theorem kNormCol_pad (nm : FVec Ideal S850000 .f32) (r : Fin 851968) (hr : 850000 ≤ r.val) :
    Cert.KernelIdeal.KVal.kNormCol nm (ix2 r (0 : Fin 1)) = 0 := by
  unfold Cert.KernelIdeal.KVal.kNormCol
  rw [shapeCast_apply _ _ (ix2 r (0 : Fin 1)) (ix1 r) (by
    rw [Shape.rowMajor_val_two, Shape.rowMajor_val_one]
    show r.val = r.val * 1 + 0
    omega)]
  rw [pad_apply_of_not_inside _ _ _ nm _ _ _ (ix1 r) (0 : Fin 1) (by
    intro hin
    have e : (r.val - 0) / (0 + 1) < 850000 := hin.2.2
    simp at e
    omega)]
  show (((0#32 : BitVec 32).toInt : ℝ) : EReal) = 0
  simp

/-! ## The start indices -/

/-- A start index normalised: a negative one wraps once by 50000. -/
def normalised (w : BitVec 32) : BitVec 32 :=
  Scalar.select (IntOp.cmpi .slt w 0#32) (IntOp.addi w 50000#32) w

/-- The padded index vector at a real message is the index. -/
theorem kRowP_real (rw : IVec S850000 32) (r : Fin 850000) :
    Cert.KernelIdeal.KVal.kRowP rw (ix1 (up r)) = rw (ix1 r) := by
  unfold Cert.KernelIdeal.KVal.kRowP
  exact pad_apply_of_inside _ _ _ rw _ _ _ (ix1 (up r)) (ix1 r) (by
    intro a
    have ha : a = 0 := Subsingleton.elim _ _
    subst ha
    show r.val = 0 + r.val * (0 + 1)
    omega)

/-- The kernel's start index of message `r` is the normalised entry `r` of the padded index vector. -/
theorem kIdx_apply (rp : IVec S851968 32) (r : Fin 851968) :
    Cert.KernelIdeal.KVal.kIdx rp (ix2 r (0 : Fin 1)) = normalised (rp (ix1 r)) := by
  unfold Cert.KernelIdeal.KVal.kIdx
  rw [broadcastInDim_apply _ _ _ (ix2 r (0 : Fin 1)) (ix1 r) (by
    intro a
    have ha : a = 0 := Subsingleton.elim _ _
    subst ha
    show r.val = if (851968 : Nat) = 1 then 0 else r.val
    rw [if_neg (by decide)])]
  rfl

/-- The reference's start index of message `r` is the normalised source of message `r`. -/
theorem ref_idx (r : Fin 850000) :
    val_main_v77 (F := Ideal) x1 (ix2 r (0 : Fin 1)) = normalised (RW x1 (ix1 r)) := by
  rw [val_main_v77_apply, val_main_v76_apply, val_main_v73_apply, val_main_v75_apply, val_main_v72_apply,
    val_main_v74_apply, val_main_c_15_apply, val_main_c_16_apply]
  have e : idx_main_v77 (ix2 r (0 : Fin 1)) = ix1 r := funext fun a => match a with | ⟨0, _⟩ => rfl
  rw [e]
  rfl

/-! ## The weights -/

/-- The reference's factor of message `r` is the negated weight, in every column. -/
theorem ref_weight (r : Fin 850000) (q : Fin 128) :
    val_main_v79 (F := Ideal) x1 (ix2 r q) = -(NM x1 (ix1 r)) := by
  rw [val_main_v79_apply, val_main_v71_apply, val_main_v70_apply]
  have e : idx_main_v70 (idx_main_v79 (ix2 r q)) = ix1 r := funext fun a => match a with | ⟨0, _⟩ => rfl
  rw [e]
  rfl

/-! ## The two row gathers -/

/-- The kernel's gather reads row "start index clamped into the table", column `q`. -/
theorem kGather_apply (idx : IVec S851968x1 32) (p : Fin 851968) (q : Fin 128) :
    Host.gather Cert.KernelIdeal.gather_S50000x128_S851968x1_S851968x128_1_0_n_n_0_1_1128 h idx (ix2 p q)
      = h (ix2 ⟨min (idx (ix2 p (0 : Fin 1))).toInt.toNat (50000 - 1), by omega⟩ q) :=
  RowGather.rowGather_apply _ rfl rfl rfl rfl rfl h idx p q (by decide)

/-- The reference's gather reads row "start index clamped into the table", column `q`. -/
theorem refGather_apply (idx : IVec Cert.ReferenceIdeal.S850000x1 32) (p : Fin 850000) (q : Fin 128) :
    Host.gather Cert.ReferenceIdeal.gather_S50000x128_S850000x1_S850000x128_1_0_n_n_0_1_1128 h idx (ix2 p q)
      = h (ix2 ⟨min (idx (ix2 p (0 : Fin 1))).toInt.toNat (50000 - 1), by omega⟩ q) :=
  RowGather.rowGather_apply _ rfl rfl rfl rfl rfl h idx p q (by decide)

/-- The kernel's gather, with the start index of the message named. -/
theorem kGather_at (idx : IVec S851968x1 32) (p : Fin 851968) (q : Fin 128) (w : BitVec 32)
    (hw : idx (ix2 p (0 : Fin 1)) = w) :
    Host.gather Cert.KernelIdeal.gather_S50000x128_S851968x1_S851968x128_1_0_n_n_0_1_1128 h idx (ix2 p q)
      = h (ix2 ⟨min w.toInt.toNat (50000 - 1), by omega⟩ q) := by
  subst hw
  exact kGather_apply h idx p q

/-- The reference's gather, with the start index of the message named. -/
theorem refGather_at (idx : IVec Cert.ReferenceIdeal.S850000x1 32) (p : Fin 850000) (q : Fin 128) (w : BitVec 32)
    (hw : idx (ix2 p (0 : Fin 1)) = w) :
    Host.gather Cert.ReferenceIdeal.gather_S50000x128_S850000x1_S850000x128_1_0_n_n_0_1_1128 h idx (ix2 p q)
      = h (ix2 ⟨min w.toInt.toNat (50000 - 1), by omega⟩ q) := by
  subst hw
  exact refGather_apply h idx p q

/-! ## The message at an index -/

/-- The second transform at message `r`, column `q`: the negated weight of the message times the gathered entry. -/
theorem msgTwo_apply (g : S851968x128.Idx → EReal) (nmcol : S851968x1.Idx → EReal) (r : Fin 851968) (q : Fin 128) :
    Cert.KernelIdeal.KVal.msgTwo g nmcol (ix2 r q) = (-(nmcol (ix2 r (0 : Fin 1)))) * g (ix2 r q) := by
  have hcol : Cert.KernelIdeal.KVal.colOf128 (ix2 r q) = ix2 r (0 : Fin 1) :=
    funext fun a => Fin.ext (by match a with | ⟨0, _⟩ => rfl | ⟨1, _⟩ => rfl)
  show (-(nmcol (Cert.KernelIdeal.KVal.colOf128 (ix2 r q)))) * g (ix2 r q) = _
  rw [hcol]

/-- On a real message the kernel's second-round message is the reference's. -/
theorem msg2_eq (r : Fin 850000) (q : Fin 128) :
    Cert.KernelIdeal.KVal.msgTwo (Host.gather Cert.KernelIdeal.gather_S50000x128_S851968x1_S851968x128_1_0_n_n_0_1_1128 h
        (Cert.KernelIdeal.KVal.kIdx (Cert.KernelIdeal.KVal.kRowP (RW x1)))) (Cert.KernelIdeal.KVal.kNormCol (NM x1)) (ix2 (up r) q)
      = val_main_v79 (F := Ideal) x1 (ix2 r q)
          * Host.gather Cert.ReferenceIdeal.gather_S50000x128_S850000x1_S850000x128_1_0_n_n_0_1_1128 h (val_main_v77 (F := Ideal) x1) (ix2 r q) := by
  rw [msgTwo_apply, kNormCol_real, ref_weight,
    kGather_at h _ (up r) q (normalised (RW x1 (ix1 r))) (by rw [kIdx_apply, kRowP_real]),
    refGather_at h _ r q (normalised (RW x1 (ix1 r))) (ref_idx x1 r)]

/-- On a padding message the weight is zero, and so is the message. -/
theorem msg2_pad (r : Fin 851968) (q : Fin 128) (hr : 850000 ≤ r.val) :
    Cert.KernelIdeal.KVal.msgTwo (Host.gather Cert.KernelIdeal.gather_S50000x128_S851968x1_S851968x128_1_0_n_n_0_1_1128 h
        (Cert.KernelIdeal.KVal.kIdx (Cert.KernelIdeal.KVal.kRowP (RW x1)))) (Cert.KernelIdeal.KVal.kNormCol (NM x1)) (ix2 r q) = 0 := by
  rw [msgTwo_apply, kNormCol_pad _ r hr, neg_zero, zero_mul]

end Cert.Bridge.Msg2

end
-- ==== Proof.BridgeDense.lean ====
/-
  The two dense layers: the kernel's `max (∑ₖ s[n,k]·w[k,o] + b[o]) 0` (and the same without the clamp) is the reference's `dot_general` plus the broadcast bias (then the maximum with the zero array), entry by entry: at the ideal instance a matrix product into a zero accumulator and the host's `dot_general` are the same sum.
-/
import proofs.«100531_j28295244546111_1_alg».proof.Proof.Gen.ReferenceIdeal.Read
import proofs.«100531_j28295244546111_1_alg».proof.Proof.KDefs
import proofs.«100531_j28295244546111_1_alg».proof.Proof.LibRowGather
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Predicate
import Idealize.ShloMosaic.PureOps.Ideal.Laws

noncomputable section

namespace Cert.Bridge.Dense

open Idealize.ShloMosaic Idealize.ShloMosaic.ValueIdx
open Cert.KernelIdeal (S50000x64 S2x800000 S50000 S64x128 S128 S128x32 S32 S850000 S851968 S851968x1 S851968x64 S851968x128 S50000x128 S50000x32)
open Cert.ReferenceIdeal.Read

/-- The message sources, the message targets and the edge weights (850000 of each), as the reference computes them from
    the edge list. -/
abbrev RW (x1 : IVec S2x800000 32) : IVec S850000 32 := val_main_v3 (F := Ideal) x1
abbrev CL (x1 : IVec S2x800000 32) : IVec S850000 32 := val_main_v6 (F := Ideal) x1
abbrev NM (x1 : IVec S2x800000 32) : FVec Ideal S850000 .f32 := val_main_v27 (F := Ideal) x1

/-- Message `r` of the unpadded 850000 among the padded 851968. -/
abbrev up (r : Fin 850000) : Fin 851968 := Fin.castLE (by decide) r

variable (x0 : FVec Ideal S50000x64 .f32) (x1 : IVec S2x800000 32) (x2 : IVec S50000 1)
variable (x3 : FVec Ideal S64x128 .f32) (x4 : FVec Ideal S128 .f32) (x5 : FVec Ideal S128x32 .f32) (x6 : FVec Ideal S32 .f32)

/-! ## The index maps of the two products and of the two bias broadcasts, at explicit coordinates -/

/-- Entry `(n, o)` of the first product reads row `n` of the left factor at column `k`. -/
theorem lidx65 (n : Fin 50000) (o : Fin 128) (k : Fin 64) : lidx_main_v65 (ix2 n o) k = ix2 n k :=
  funext fun a => Fin.ext (by match a with | ⟨0, _⟩ => rfl | ⟨1, _⟩ => rfl)

/-- Entry `(n, o)` of the first product reads column `o` of the right factor at row `k`. -/
theorem ridx65 (n : Fin 50000) (o : Fin 128) (k : Fin 64) : ridx_main_v65 (ix2 n o) k = ix2 k o :=
  funext fun a => Fin.ext (by match a with | ⟨0, _⟩ => rfl | ⟨1, _⟩ => rfl)

/-- The bias broadcast `[128] → [1,128] → [50000,128]` reads entry `o` of the bias. -/
theorem bidx67 (n : Fin 50000) (o : Fin 128) : idx_main_v66 (idx_main_v67 (ix2 n o)) = ix1 o :=
  funext fun a => Fin.ext (by match a with | ⟨0, _⟩ => rfl)

theorem lidx84 (n : Fin 50000) (o : Fin 32) (k : Fin 128) : lidx_main_v84 (ix2 n o) k = ix2 n k :=
  funext fun a => Fin.ext (by match a with | ⟨0, _⟩ => rfl | ⟨1, _⟩ => rfl)

theorem ridx84 (n : Fin 50000) (o : Fin 32) (k : Fin 128) : ridx_main_v84 (ix2 n o) k = ix2 k o :=
  funext fun a => Fin.ext (by match a with | ⟨0, _⟩ => rfl | ⟨1, _⟩ => rfl)

/-- The bias broadcast `[32] → [1,32] → [50000,32]` reads entry `o` of the bias. -/
theorem bidx86 (n : Fin 50000) (o : Fin 32) : idx_main_v85 (idx_main_v86 (ix2 n o)) = ix1 o :=
  funext fun a => Fin.ext (by match a with | ⟨0, _⟩ => rfl)

/-- The first dense layer of the reference's aggregate is the reference's hidden layer. -/
theorem dense1_eq : Cert.KernelIdeal.KVal.dense1 (val_main_v64 (F := Ideal) x0 x1 x2) x3 x4 = val_main_v69 (F := Ideal) x0 x1 x2 x3 x4 := by
  funext i
  obtain ⟨n, o, rfl⟩ : ∃ (n : Fin 50000) (o : Fin 128), i = ix2 n o := ⟨_, _, eq_ix2 i⟩
  -- the reference's entry: the maximum of (the product's sum plus the broadcast bias) and the zero array's entry
  rw [val_main_v69_apply, val_main_v68_apply, val_main_v65_apply, val_main_v67_apply, val_main_v66_apply,
    val_main_call0_v0_apply, val_main_call0_cst_apply]
  generalize val_main_v64 (F := Ideal) x0 x1 x2 = s
  unfold Cert.KernelIdeal.KVal.dense1
  rw [Ideal.maximumf_def, Ideal.addf_def, Ideal.ofBits_def, Ideal.ofBits_zero_f32, bidx67 n o]
  -- both sides are now `max (∑ₖ … + b[o]) 0`; the summands agree index by index
  refine congrArg (fun t => max (t + x4 (ix1 o)) 0) (Finset.sum_congr rfl fun k _ => ?_)
  rw [lidx65 n o k, ridx65 n o k]

/-- The second dense layer of the reference's second aggregate is the reference's result. -/
theorem dense2_eq : Cert.KernelIdeal.KVal.dense2 (val_main_v83 (F := Ideal) x0 x1 x2 x3 x4) x5 x6 = val_main_v87 (F := Ideal) x0 x1 x2 x3 x4 x5 x6 := by
  funext i
  obtain ⟨n, o, rfl⟩ : ∃ (n : Fin 50000) (o : Fin 32), i = ix2 n o := ⟨_, _, eq_ix2 i⟩
  -- the reference's entry: the product's sum plus the broadcast bias
  rw [val_main_v87_apply, val_main_v84_apply, val_main_v86_apply, val_main_v85_apply]
  generalize val_main_v83 (F := Ideal) x0 x1 x2 x3 x4 = s
  unfold Cert.KernelIdeal.KVal.dense2
  rw [Ideal.addf_def, bidx86 n o]
  refine congrArg (fun t => t + x6 (ix1 o)) (Finset.sum_congr rfl fun k _ => ?_)
  rw [lidx84 n o k, ridx84 n o k]

end Cert.Bridge.Dense

end
-- ==== Proof.BridgeAll.lean ====
/-
  The kernel's composition of stages is the reference's, stage by stage.  Both programs send the messages through: a
  transform, a scatter-add onto the target nodes, a dense layer, a second transform, a second scatter-add, a second
  dense layer.  The kernel's messages are the reference's 850000 followed by 1968 padding messages that are zero (their
  weight is zero), and a scatter-add is an exact sum at the ideal instance, so the padding adds nothing; the dense
  layers agree because a matrix product into a zero accumulator and the host's dot_general are one sum.
-/
import proofs.«100531_j28295244546111_1_alg».proof.Proof.Gen.ReferenceIdeal.Read
import proofs.«100531_j28295244546111_1_alg».proof.Proof.KDefs
import proofs.«100531_j28295244546111_1_alg».proof.Proof.LibRowScatter
import proofs.«100531_j28295244546111_1_alg».proof.Proof.BridgeMsg1
import proofs.«100531_j28295244546111_1_alg».proof.Proof.BridgeMsg2
import proofs.«100531_j28295244546111_1_alg».proof.Proof.BridgeDense

noncomputable section

namespace Cert.Bridge.All

open Idealize.ShloMosaic Idealize.ShloMosaic.ValueIdx
open Cert.KernelIdeal (S_ S50000x64 S2x800000 S50000 S64x128 S128 S128x32 S32 S850000 S851968 S851968x1 S851968x64 S851968x128 S50000x128 S50000x32)
open Cert.KernelIdeal.KVal
open Cert.ReferenceIdeal.Read

variable (x0 : FVec Ideal S50000x64 .f32) (x1 : IVec S2x800000 32) (x2 : IVec S50000 1)
variable (x3 : FVec Ideal S64x128 .f32) (x4 : FVec Ideal S128 .f32) (x5 : FVec Ideal S128x32 .f32) (x6 : FVec Ideal S32 .f32)

/-- The first aggregate: the padded scatter-add is the reference's. -/
theorem agg1_eq : kAgg1 x0 x2 (val_main_v3 (F := Ideal) x1) (val_main_v6 (F := Ideal) x1) (val_main_v27 (F := Ideal) x1)
    = val_main_v64 (F := Ideal) x0 x1 x2 := by
  unfold kAgg1 val_main_v64
  have hM : 850000 ≤ 851968 := by omega
  have hK : RowScatter.IsRow (N := 50000) (C := 64) (M := 851968) Cert.KernelIdeal.scatter_S50000x64_S851968x1_S851968x64_1_0_0_1 := ⟨rfl, rfl, rfl, rfl⟩
  have hR : RowScatter.IsRow (N := 50000) (C := 64) (M := 850000) Cert.ReferenceIdeal.scatter_S50000x64_S850000x1_S850000x64_1_0_0_1 := ⟨rfl, rfl, rfl, rfl⟩
  have key := RowScatter.scatterAdd_pad (N := 50000) (C := 64) (M₀ := 850000) (M := 851968) (w := 32) hM
    Cert.KernelIdeal.scatter_S50000x64_S851968x1_S851968x64_1_0_0_1 Cert.ReferenceIdeal.scatter_S50000x64_S850000x1_S850000x64_1_0_0_1
    hK hR
    (broadcastInDim S50000x64 ![] Cert.KernelIdeal.Gen.bcast_S_S50000x64 (constant (F := Ideal) S_ .f32 0x00000000#32) : FVec Ideal S50000x64 .f32)
    (broadcastInDim S851968x1 ![0] Cert.KernelIdeal.Gen.bcast_S851968_S851968x1_0 (kRowP (val_main_v6 (F := Ideal) x1)))
    (val_main_v63 (F := Ideal) x1)
    (kMsg1 x0 x2 (val_main_v3 (F := Ideal) x1) (val_main_v27 (F := Ideal) x1))
    (val_main_v61 (F := Ideal) x0 x1 x2)
    (fun r => Cert.Bridge.Msg1.tgt_eq_v63 x1 r)
    (fun r q => Cert.Bridge.Msg1.msg1_eq x0 x1 x2 r q)
    (fun r q h => Cert.Bridge.Msg1.msg1_pad x0 x1 x2 r q h)
  -- the two programs' zero arrays are one array
  have hx : (val_main_v62 (F := Ideal))
      = (broadcastInDim S50000x64 ![] Cert.KernelIdeal.Gen.bcast_S_S50000x64 (constant (F := Ideal) S_ .f32 0x00000000#32) : FVec Ideal S50000x64 .f32) := rfl
  refine key.trans ?_
  exact congrArg (fun z => Host.scatterAdd (F := Ideal) (φ := .f32) Cert.ReferenceIdeal.scatter_S50000x64_S850000x1_S850000x64_1_0_0_1 z
    (val_main_v63 (F := Ideal) x1) (val_main_v61 (F := Ideal) x0 x1 x2)) hx.symm

/-- The hidden layer. -/
theorem h1_eq : kH1 x0 x2 x3 x4 (val_main_v3 (F := Ideal) x1) (val_main_v6 (F := Ideal) x1) (val_main_v27 (F := Ideal) x1)
    = val_main_v69 (F := Ideal) x0 x1 x2 x3 x4 := by
  unfold kH1
  rw [agg1_eq]
  exact Cert.Bridge.Dense.dense1_eq x0 x1 x2 x3 x4

/-- The second aggregate. -/
theorem agg2_eq : kAgg2 x0 x2 x3 x4 (val_main_v3 (F := Ideal) x1) (val_main_v6 (F := Ideal) x1) (val_main_v27 (F := Ideal) x1)
    = val_main_v83 (F := Ideal) x0 x1 x2 x3 x4 := by
  unfold kAgg2 kMsg2 kHj val_main_v83
  rw [h1_eq]
  have hM : 850000 ≤ 851968 := by omega
  have hK : RowScatter.IsRow (N := 50000) (C := 128) (M := 851968) Cert.KernelIdeal.scatter_S50000x128_S851968x1_S851968x128_1_0_0_1 := ⟨rfl, rfl, rfl, rfl⟩
  have hR : RowScatter.IsRow (N := 50000) (C := 128) (M := 850000) Cert.ReferenceIdeal.scatter_S50000x128_S850000x1_S850000x128_1_0_0_1 := ⟨rfl, rfl, rfl, rfl⟩
  have key := RowScatter.scatterAdd_pad (N := 50000) (C := 128) (M₀ := 850000) (M := 851968) (w := 32) hM
    Cert.KernelIdeal.scatter_S50000x128_S851968x1_S851968x128_1_0_0_1 Cert.ReferenceIdeal.scatter_S50000x128_S850000x1_S850000x128_1_0_0_1
    hK hR
    (broadcastInDim S50000x128 ![] Cert.KernelIdeal.Gen.bcast_S_S50000x128 (constant (F := Ideal) S_ .f32 0x00000000#32) : FVec Ideal S50000x128 .f32)
    (broadcastInDim S851968x1 ![0] Cert.KernelIdeal.Gen.bcast_S851968_S851968x1_0 (kRowP (val_main_v6 (F := Ideal) x1)))
    (val_main_v82 (F := Ideal) x1)
    (msgTwo (Host.gather Cert.KernelIdeal.gather_S50000x128_S851968x1_S851968x128_1_0_n_n_0_1_1128 (val_main_v69 (F := Ideal) x0 x1 x2 x3 x4)
      (kIdx (kRowP (val_main_v3 (F := Ideal) x1)))) (kNormCol (val_main_v27 (F := Ideal) x1)))
    (val_main_v80 (F := Ideal) x0 x1 x2 x3 x4)
    (fun r => Cert.Bridge.Msg1.tgt_eq_v82 x1 r)
    (fun r q => (Cert.Bridge.Msg2.msg2_eq x1 (val_main_v69 (F := Ideal) x0 x1 x2 x3 x4) r q).trans (ValueIdx.mulf_apply (val_main_v79 (F := Ideal) x1) (val_main_v78 (F := Ideal) x0 x1 x2 x3 x4) (ix2 r q)).symm)
    (fun r q h => Cert.Bridge.Msg2.msg2_pad x1 (val_main_v69 (F := Ideal) x0 x1 x2 x3 x4) r q h)
  -- the two programs' zero arrays are one array
  have hx : (val_main_v81 (F := Ideal))
      = (broadcastInDim S50000x128 ![] Cert.KernelIdeal.Gen.bcast_S_S50000x128 (constant (F := Ideal) S_ .f32 0x00000000#32) : FVec Ideal S50000x128 .f32) := rfl
  refine key.trans ?_
  exact congrArg (fun z => Host.scatterAdd (F := Ideal) (φ := .f32) Cert.ReferenceIdeal.scatter_S50000x128_S850000x1_S850000x128_1_0_0_1 z
    (val_main_v82 (F := Ideal) x1) (val_main_v80 (F := Ideal) x0 x1 x2 x3 x4)) hx.symm

/-- THE RESULTS AGREE: the kernel's composition of the argument arrays is the reference's. -/
theorem out_eq : kOut x0 x2 x3 x4 x5 x6 (val_main_v3 (F := Ideal) x1) (val_main_v6 (F := Ideal) x1) (val_main_v27 (F := Ideal) x1)
    = val_main_v87 (F := Ideal) x0 x1 x2 x3 x4 x5 x6 := by
  unfold kOut
  rw [agg2_eq]
  exact Cert.Bridge.Dense.dense2_eq x0 x1 x2 x3 x4 x5 x6

end Cert.Bridge.All

end
-- ==== Proof.lean ====
/-
  The certificate: the kernel program (a graph convolution in two rounds — gather a node row per message, transform it,
  add every message into its target node, apply a dense layer — with the 850000 messages padded to 851968 for the
  kernels' blocks of 8192) against its reference (the same two rounds on the 850000 messages, unpadded).

  Frames: the two kernel programs' are the generated frames; the reference's is its generated run with the result
  dropped.  The idealization rewrote nothing, so `preserves` is trivial.  The value claim: the idealized kernel's run
  ends with its result buffer at `KVal.kOut` of the argument arrays (the run read boundary by boundary, `KHost`), the
  reference's at `val_main_v87` of them (its generated run), and the two are one function (`Bridge.All.out_eq`): the
  padding messages carry weight zero, a product with zero is zero and a scatter-add is an exact sum at the ideal
  instance, so they add nothing; the dense layers are the same sums.  No finiteness of the inputs is needed.
-/
import proofs.«100531_j28295244546111_1_alg».proof.Defs
import proofs.«100531_j28295244546111_1_alg».proof.Proof.Gen.Kernel
import proofs.«100531_j28295244546111_1_alg».proof.Proof.Gen.Kernel.Skeleton
import proofs.«100531_j28295244546111_1_alg».proof.Proof.Gen.Kernel.Launch
import proofs.«100531_j28295244546111_1_alg».proof.Proof.Gen.Kernel.Points
import proofs.«100531_j28295244546111_1_alg».proof.Proof.Gen.Kernel.Frame
import proofs.«100531_j28295244546111_1_alg».proof.Proof.Gen.KernelIdeal
import proofs.«100531_j28295244546111_1_alg».proof.Proof.Gen.KernelIdeal.Skeleton
import proofs.«100531_j28295244546111_1_alg».proof.Proof.Gen.KernelIdeal.Launch
import proofs.«100531_j28295244546111_1_alg».proof.Proof.Gen.KernelIdeal.Points
import proofs.«100531_j28295244546111_1_alg».proof.Proof.Gen.KernelIdeal.Frame
import proofs.«100531_j28295244546111_1_alg».proof.Proof.Gen.ReferenceIdeal
import proofs.«100531_j28295244546111_1_alg».proof.Proof.Gen.Pre_finite_inputs
import proofs.«100531_j28295244546111_1_alg».proof.Proof.Gen.ReferenceIdeal.Run
import proofs.«100531_j28295244546111_1_alg».proof.Proof.Gen.ReferenceIdeal.Read
import proofs.«100531_j28295244546111_1_alg».proof.Proof.KRun
import proofs.«100531_j28295244546111_1_alg».proof.Proof.KHost
import proofs.«100531_j28295244546111_1_alg».proof.Proof.BridgeAll
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the arguments, both idealized programs end, with equal results. -/
theorem algebraic : Cert.algebraic_KernelIdeal_ReferenceIdeal := by
  intro m ρ m' ρ' _ hagree
  refine ⟨fun c => Cert.KernelIdeal.Gen.W14 m ρ c (Proc.devRef .tc Cert.KernelIdeal.main_v64),
    Cert.KernelIdeal.KRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v87_eq]
  show _ = Cert.KernelIdeal.Gen.W14 m ρ c (Proc.devRef .tc Cert.KernelIdeal.main_v64)
  rw [Cert.KernelIdeal.KHost.W14_v64, h0, h1, h2, h3, h4, h5, h6]
  exact (Cert.Bridge.All.out_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
